-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x256 : Shape := ⟨4, ![4, 256, 256, 256]⟩
abbrev S_ : Shape := ⟨0, ![]⟩

class Facts : Prop where
  bcast_S_S4x256x256x256 : S_.BroadcastsInDim S4x256x256x256 (![] : Fin 0 → Fin S4x256x256x256.rank)
  reducesTo_S4x256x256x256_S_d0_1_2_3 : S4x256x256x256.ReducesTo [0, 1, 2, 3] S_
  h_S_ : 0 < S_.numel

variable [Facts]

def fn {F : FTy → Type} [FloatOps F] (main_arg0 : FVec F S4x256x256x256 .f32) : IVec S_ 1 :=
  let main_v0 : FVec F S4x256x256x256 .f32 := Host.absf main_arg0
  let main_cst : FVec F S_ .f32 := constant S_ .f32 0x7F800000#32
  let main_v1 : FVec F S4x256x256x256 .f32 := broadcastInDim S4x256x256x256 ![] bcast_S_S4x256x256x256 main_cst
  let main_v2 : IVec S4x256x256x256 1 := cmpf .olt main_v0 main_v1
  let main_c : IVec S_ 1 := constantI S_ 1 1#1
  let main_v3 : IVec S_ 1 := (fun x v => Host.reduce IntOp.andi x v reducesTo_S4x256x256x256_S_d0_1_2_3 h_S_) main_v2 main_c
  main_v3
-- ==== Kernel.lean ====
abbrev S4x256x256x256 : Shape := ⟨4, ![4, 256, 256, 256]⟩
abbrev S4x3x256x256x256 : Shape := ⟨5, ![4, 3, 256, 256, 256]⟩
abbrev S1x8x256x256 : Shape := ⟨4, ![1, 8, 256, 256]⟩
abbrev S1x1x256x256 : Shape := ⟨4, ![1, 1, 256, 256]⟩
abbrev S1x3x8x256x256 : Shape := ⟨5, ![1, 3, 8, 256, 256]⟩
abbrev S8x256x256 : Shape := ⟨3, ![8, 256, 256]⟩
abbrev S256x256 : Shape := ⟨2, ![256, 256]⟩
abbrev S7x256x256 : Shape := ⟨3, ![7, 256, 256]⟩
abbrev S1x256x256 : Shape := ⟨3, ![1, 256, 256]⟩
abbrev S1x1x8x256x256 : Shape := ⟨5, ![1, 1, 8, 256, 256]⟩
abbrev S8x255x256 : Shape := ⟨3, ![8, 255, 256]⟩
abbrev S8x1x256 : Shape := ⟨3, ![8, 1, 256]⟩
abbrev S8x256x255 : Shape := ⟨3, ![8, 256, 255]⟩
abbrev S8x256x1 : Shape := ⟨3, ![8, 256, 1]⟩

abbrev nBuf : Space → Nat
  | .hbm => 2
  | .vmem => 8
  | .smem => 0
  | _ => 0

abbrev bufTy : (tb : Table) → Fin (tcTables nBuf tb) → BufTy
  | .hbm, ⟨0, _⟩ => ⟨S4x256x256x256, .f32⟩
  | .hbm, ⟨1, _⟩ => ⟨S4x3x256x256x256, .f32⟩
  | .local _ .vmem, ⟨0, _⟩ => ⟨S1x8x256x256, .f32⟩
  | .local _ .vmem, ⟨1, _⟩ => ⟨S1x8x256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x3x8x256x256, .f32⟩
  | .local _ .vmem, ⟨7, _⟩ => ⟨S1x3x8x256x256, .f32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c256_i32 : BitVec 32 := 256#32
  let c0_i32 : BitVec 32 := 0#32
  let v2 : BitVec 1 := Scalar.cmpi .eq c256_i32 c0_i32
  let c1_i32_0 : BitVec 32 := 1#32
  let v3 : BitVec 32 := Scalar.select v2 c1_i32_0 c256_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, v11.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c256_i32 : BitVec 32 := 256#32
  let c0_i32 : BitVec 32 := 0#32
  let v2 : BitVec 1 := Scalar.cmpi .eq c256_i32 c0_i32
  let c1_i32 : BitVec 32 := 1#32
  let v3 : BitVec 32 := Scalar.select v2 c1_i32 c256_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, v11.toNat, c0_i32_4.toNat, c0_i32_5.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S256x256 : S1x1x256x256.ShapeCasts S256x256
  slices_S8x256x256_o1_0_0_S7x256x256 : S8x256x256.Slices ![1, 0, 0] S7x256x256
  shapeCasts_S256x256_S1x256x256 : S256x256.ShapeCasts S1x256x256
  concatenates_S7x256x256_S1x256x256_S8x256x256_d0 : Shape.Concatenates [S7x256x256, S1x256x256] S8x256x256 0
  slices_S8x256x256_o0_0_0_S7x256x256 : S8x256x256.Slices ![0, 0, 0] S7x256x256
  concatenates_S1x256x256_S7x256x256_S8x256x256_d0 : Shape.Concatenates [S1x256x256, S7x256x256] S8x256x256 0
  inb_S1x3x8x256x256_S1x1x8x256x256_0_0_0_0_0 : ∀ a, (![0, 0, 0, 0, 0] : Fin 5 → Nat) a + S1x1x8x256x256.size a ≤ S1x3x8x256x256.size a
  h_S1x1x8x256x256 : 0 < S1x1x8x256x256.numel
  shapeCasts_S1x1x8x256x256_S8x256x256 : S1x1x8x256x256.ShapeCasts S8x256x256
  shapeCasts_S8x256x256_S1x1x8x256x256 : S8x256x256.ShapeCasts S1x1x8x256x256
  slices_S8x256x256_o0_1_0_S8x255x256 : S8x256x256.Slices ![0, 1, 0] S8x255x256
  slices_S8x256x256_o0_0_0_S8x1x256 : S8x256x256.Slices ![0, 0, 0] S8x1x256
  concatenates_S8x255x256_S8x1x256_S8x256x256_d1 : Shape.Concatenates [S8x255x256, S8x1x256] S8x256x256 1
  slices_S8x256x256_o0_255_0_S8x1x256 : S8x256x256.Slices ![0, 255, 0] S8x1x256
  slices_S8x256x256_o0_0_0_S8x255x256 : S8x256x256.Slices ![0, 0, 0] S8x255x256
  concatenates_S8x1x256_S8x255x256_S8x256x256_d1 : Shape.Concatenates [S8x1x256, S8x255x256] S8x256x256 1
  inb_S1x3x8x256x256_S1x1x8x256x256_0_1_0_0_0 : ∀ a, (![0, 1, 0, 0, 0] : Fin 5 → Nat) a + S1x1x8x256x256.size a ≤ S1x3x8x256x256.size a
  slices_S8x256x256_o0_0_1_S8x256x255 : S8x256x256.Slices ![0, 0, 1] S8x256x255
  slices_S8x256x256_o0_0_0_S8x256x1 : S8x256x256.Slices ![0, 0, 0] S8x256x1
  concatenates_S8x256x255_S8x256x1_S8x256x256_d2 : Shape.Concatenates [S8x256x255, S8x256x1] S8x256x256 2
  slices_S8x256x256_o0_0_255_S8x256x1 : S8x256x256.Slices ![0, 0, 255] S8x256x1
  slices_S8x256x256_o0_0_0_S8x256x255 : S8x256x256.Slices ![0, 0, 0] S8x256x255
  concatenates_S8x256x1_S8x256x255_S8x256x256_d2 : Shape.Concatenates [S8x256x1, S8x256x255] S8x256x256 2
  inb_S1x3x8x256x256_S1x1x8x256x256_0_2_0_0_0 : ∀ a, (![0, 2, 0, 0, 0] : Fin 5 → Nat) a + S1x1x8x256x256.size a ≤ S1x3x8x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S4x256x256x256.size a
  hwx0_0 : ∀ i : grid0.Coords, EltTy.bits .f32 = 32 ∨ (Rect.block (s := S4x256x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x256.size a ≤ S4x256x256x256.size a
  hwx0_1 : ∀ i : grid0.Coords, EltTy.bits .f32 = 32 ∨ (Rect.block (s := S4x256x256x256) S1x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x256.size a ≤ S4x256x256x256.size a
  hwx0_2 : ∀ i : grid0.Coords, EltTy.bits .f32 = 32 ∨ (Rect.block (s := S4x256x256x256) S1x1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x8x256x256.size a ≤ S4x3x256x256x256.size a
  hwx0_3 : ∀ i : grid0.Coords, EltTy.bits .f32 = 32 ∨ (Rect.block (s := S4x3x256x256x256) S1x3x8x256x256.size (cc0_transform_3 i) (hinb0_3 i)).WholeWords (EltTy.packing .f32)

variable [Facts₀]

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x8x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x256x256x256 : Shape := ⟨4, ![4, 256, 256, 256]⟩
abbrev S4x255x256x256 : Shape := ⟨4, ![4, 255, 256, 256]⟩
abbrev S4x1x256x256 : Shape := ⟨4, ![4, 1, 256, 256]⟩
abbrev S_ : Shape := ⟨0, ![]⟩
abbrev S4x256x255x256 : Shape := ⟨4, ![4, 256, 255, 256]⟩
abbrev S4x256x1x256 : Shape := ⟨4, ![4, 256, 1, 256]⟩
abbrev S4x256x256x255 : Shape := ⟨4, ![4, 256, 256, 255]⟩
abbrev S4x256x256x1 : Shape := ⟨4, ![4, 256, 256, 1]⟩
abbrev S4x1x256x256x256 : Shape := ⟨5, ![4, 1, 256, 256, 256]⟩
abbrev S4x3x256x256x256 : Shape := ⟨5, ![4, 3, 256, 256, 256]⟩

abbrev nBuf : Space → Nat
  | .hbm => 35
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S4x255x256x256, .f32⟩
  | .hbm, ⟨2, _⟩ => ⟨S4x1x256x256, .f32⟩
  | .hbm, ⟨3, _⟩ => ⟨S4x256x256x256, .f32⟩
  | .hbm, ⟨4, _⟩ => ⟨S4x1x256x256, .f32⟩
  | .hbm, ⟨5, _⟩ => ⟨S4x255x256x256, .f32⟩
  | .hbm, ⟨6, _⟩ => ⟨S4x256x256x256, .f32⟩
  | .hbm, ⟨7, _⟩ => ⟨S4x256x256x256, .f32⟩
  | .hbm, ⟨8, _⟩ => ⟨S_, .f32⟩
  | .hbm, ⟨9, _⟩ => ⟨S4x256x256x256, .f32⟩
  | .hbm, ⟨10, _⟩ => ⟨S4x256x256x256, .f32⟩
  | .hbm, ⟨11, _⟩ => ⟨S4x256x255x256, .f32⟩
  | .hbm, ⟨12, _⟩ => ⟨S4x256x1x256, .f32⟩
  | .hbm, ⟨13, _⟩ => ⟨S4x256x256x256, .f32⟩
  | .hbm, ⟨14, _⟩ => ⟨S4x256x1x256, .f32⟩
  | .hbm, ⟨15, _⟩ => ⟨S4x256x255x256, .f32⟩
  | .hbm, ⟨16, _⟩ => ⟨S4x256x256x256, .f32⟩
  | .hbm, ⟨17, _⟩ => ⟨S4x256x256x256, .f32⟩
  | .hbm, ⟨18, _⟩ => ⟨S_, .f32⟩
  | .hbm, ⟨19, _⟩ => ⟨S4x256x256x256, .f32⟩
  | .hbm, ⟨20, _⟩ => ⟨S4x256x256x256, .f32⟩
  | .hbm, ⟨21, _⟩ => ⟨S4x256x256x255, .f32⟩
  | .hbm, ⟨22, _⟩ => ⟨S4x256x256x1, .f32⟩
  | .hbm, ⟨23, _⟩ => ⟨S4x256x256x256, .f32⟩
  | .hbm, ⟨24, _⟩ => ⟨S4x256x256x1, .f32⟩
  | .hbm, ⟨25, _⟩ => ⟨S4x256x256x255, .f32⟩
  | .hbm, ⟨26, _⟩ => ⟨S4x256x256x256, .f32⟩
  | .hbm, ⟨27, _⟩ => ⟨S4x256x256x256, .f32⟩
  | .hbm, ⟨28, _⟩ => ⟨S_, .f32⟩
  | .hbm, ⟨29, _⟩ => ⟨S4x256x256x256, .f32⟩
  | .hbm, ⟨30, _⟩ => ⟨S4x256x256x256, .f32⟩
  | .hbm, ⟨31, _⟩ => ⟨S4x1x256x256x256, .f32⟩
  | .hbm, ⟨32, _⟩ => ⟨S4x1x256x256x256, .f32⟩
  | .hbm, ⟨33, _⟩ => ⟨S4x1x256x256x256, .f32⟩
  | .hbm, ⟨34, _⟩ => ⟨S4x3x256x256x256, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev main_call1_v0 : Ref sig .tc := ⟨.hbm, 4, rfl⟩
abbrev main_call1_v1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call2_v0 : Ref sig .tc := ⟨.hbm, 11, rfl⟩
abbrev main_call2_v1 : Ref sig .tc := ⟨.hbm, 12, rfl⟩
abbrev main_v5 : Ref sig .tc := ⟨.hbm, 13, rfl⟩
abbrev main_call3_v0 : Ref sig .tc := ⟨.hbm, 14, rfl⟩
abbrev main_call3_v1 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_call4_v0 : Ref sig .tc := ⟨.hbm, 21, rfl⟩
abbrev main_call4_v1 : Ref sig .tc := ⟨.hbm, 22, rfl⟩
abbrev main_v10 : Ref sig .tc := ⟨.hbm, 23, rfl⟩
abbrev main_call5_v0 : Ref sig .tc := ⟨.hbm, 24, rfl⟩
abbrev main_call5_v1 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]

class Facts₀ : Prop where
  slices_S4x256x256x256_S4x255x256x256_0_1_0_0 : S4x256x256x256.Slices ![0, 1, 0, 0] S4x255x256x256
  slices_S4x256x256x256_S4x1x256x256_0_0_0_0 : S4x256x256x256.Slices ![0, 0, 0, 0] S4x1x256x256
  concatenates_S4x255x256x256_S4x1x256x256_S4x256x256x256_d1 : Shape.Concatenates [S4x255x256x256, S4x1x256x256] S4x256x256x256 1
  slices_S4x256x256x256_S4x1x256x256_0_255_0_0 : S4x256x256x256.Slices ![0, 255, 0, 0] S4x1x256x256
  slices_S4x256x256x256_S4x255x256x256_0_0_0_0 : S4x256x256x256.Slices ![0, 0, 0, 0] S4x255x256x256
  concatenates_S4x1x256x256_S4x255x256x256_S4x256x256x256_d1 : Shape.Concatenates [S4x1x256x256, S4x255x256x256] S4x256x256x256 1
  bcast_S_S4x256x256x256 : S_.BroadcastsInDim S4x256x256x256 (![] : Fin 0 → Fin S4x256x256x256.rank)
  slices_S4x256x256x256_S4x256x255x256_0_0_1_0 : S4x256x256x256.Slices ![0, 0, 1, 0] S4x256x255x256
  slices_S4x256x256x256_S4x256x1x256_0_0_0_0 : S4x256x256x256.Slices ![0, 0, 0, 0] S4x256x1x256
  concatenates_S4x256x255x256_S4x256x1x256_S4x256x256x256_d2 : Shape.Concatenates [S4x256x255x256, S4x256x1x256] S4x256x256x256 2
  slices_S4x256x256x256_S4x256x1x256_0_0_255_0 : S4x256x256x256.Slices ![0, 0, 255, 0] S4x256x1x256
  slices_S4x256x256x256_S4x256x255x256_0_0_0_0 : S4x256x256x256.Slices ![0, 0, 0, 0] S4x256x255x256
  concatenates_S4x256x1x256_S4x256x255x256_S4x256x256x256_d2 : Shape.Concatenates [S4x256x1x256, S4x256x255x256] S4x256x256x256 2
  slices_S4x256x256x256_S4x256x256x255_0_0_0_1 : S4x256x256x256.Slices ![0, 0, 0, 1] S4x256x256x255
  slices_S4x256x256x256_S4x256x256x1_0_0_0_0 : S4x256x256x256.Slices ![0, 0, 0, 0] S4x256x256x1
  concatenates_S4x256x256x255_S4x256x256x1_S4x256x256x256_d3 : Shape.Concatenates [S4x256x256x255, S4x256x256x1] S4x256x256x256 3
  slices_S4x256x256x256_S4x256x256x1_0_0_0_255 : S4x256x256x256.Slices ![0, 0, 0, 255] S4x256x256x1
  slices_S4x256x256x256_S4x256x256x255_0_0_0_0 : S4x256x256x256.Slices ![0, 0, 0, 0] S4x256x256x255
  concatenates_S4x256x256x1_S4x256x256x255_S4x256x256x256_d3 : Shape.Concatenates [S4x256x256x1, S4x256x256x255] S4x256x256x256 3
  bcast_S4x256x256x256_S4x1x256x256x256_0_2_3_4 : S4x256x256x256.BroadcastsInDim S4x1x256x256x256 (![0, 2, 3, 4] : Fin 4 → Fin S4x1x256x256x256.rank)
  concatenates_S4x1x256x256x256_S4x1x256x256x256_S4x1x256x256x256_S4x3x256x256x256_d1 : Shape.Concatenates [S4x1x256x256x256, S4x1x256x256x256, S4x1x256x256x256] S4x3x256x256x256 1

variable [Facts₀]

class Facts : Prop extends Facts₀ where

variable [Facts]
-- ==== Proof.BodyK.lean ====
/-
  The run of the finite-difference kernel: every fair execution ends, faults nowhere, and leaves in the result
  array, block by block, what the body computes from the field's blocks; the field itself is left as it was.

  The kernel walks a grid of 4 × 32 points.  At point (b, ξ) it is handed THREE windows onto the one field array —
  the slab of eight x-planes `8ξ … 8ξ+7` of batch `b`, the single plane just before the slab and the single plane just
  after it, both taken modulo 256 — and one window onto the result array, the 3 × 8 × 256 × 256 block of the three
  gradient components over that slab.  The body fills the result block by three stores, one per component, which
  together tile it; so what it leaves there is a closed function of the three input blocks (`outBlock`).

  Because the three input windows read ONE array, the array's ownership is divided among them at the launch: a half,
  a quarter and a quarter of it.  Reading needs no more than a share, and nothing writes the field, so each window
  ends holding the contents it began with.
-/
import proofs.«110784_j85263690760521_1_alg».proof.Proof.Gen.Kernel.Launch
import proofs.«110784_j85263690760521_1_alg».proof.Proof.Gen.Kernel.Skeleton
import proofs.«110784_j85263690760521_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the kernel finds them, and the windows' blocks -/

/-- The program is the kernel alone, so the kernel finds every array as it was at the start. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block whenever the body is called. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result block -/

/-- The whole slab, the whole plane, and the three component slots of the result block. -/
abbrev rSlab : Rect S1x8x256x256 := Rect.unit (s := S1x8x256x256) ![0, 0, 0, 0] S1x8x256x256.size inb_S1x8x256x256_S1x8x256x256_0_0_0_0
abbrev rPlane : Rect S1x1x256x256 := Rect.unit (s := S1x1x256x256) ![0, 0, 0, 0] S1x1x256x256.size inb_S1x1x256x256_S1x1x256x256_0_0_0_0
abbrev rX : Rect S1x3x8x256x256 := Rect.unit (s := S1x3x8x256x256) ![0, 0, 0, 0, 0] S1x1x8x256x256.size inb_S1x3x8x256x256_S1x1x8x256x256_0_0_0_0_0
abbrev rY : Rect S1x3x8x256x256 := Rect.unit (s := S1x3x8x256x256) ![0, 1, 0, 0, 0] S1x1x8x256x256.size inb_S1x3x8x256x256_S1x1x8x256x256_0_1_0_0_0
abbrev rZ : Rect S1x3x8x256x256 := Rect.unit (s := S1x3x8x256x256) ![0, 2, 0, 0, 0] S1x1x8x256x256.size inb_S1x3x8x256x256_S1x1x8x256x256_0_2_0_0_0

/-- The result block after the body, from the slab `x0`, the plane before it `x1` and the plane after it `x2`: the
    three stores, the last one first — the z component, the y component, the x component. -/
def outBlock (x0 : Vec F S1x8x256x256 .f32) (x1 : Vec F S1x1x256x256 .f32) (x2 : Vec F S1x1x256x256 .f32) : Vec F S1x3x8x256x256 .f32 :=
  View.canon [⟨rZ, k0_pay1 (k0_pay2 (View.ld x0 rSlab)) (k0_pay5 (View.ld x0 rSlab)) (k0_pay6 (View.ld x0 rSlab))⟩,
    ⟨rY, k0_pay4 (View.ld x0 rSlab)⟩,
    ⟨rX, k0_pay3 (View.ld x0 rSlab) (View.ld x1 rPlane) (View.ld x2 rPlane)⟩]

/-- The three component slots tile the result block. -/
theorem cover_out (p2 p1 p0 : Vec F S1x1x8x256x256 .f32) (y : S1x3x8x256x256.Idx) :
    ∃ pc ∈ ([⟨rZ, p2⟩, ⟨rY, p1⟩, ⟨rX, p0⟩] : List (View.Piece (Elt F) S1x3x8x256x256 .f32)), y ∈ pc.1.set :=
  View.cover_of_tiled [⟨rZ, p2⟩, ⟨rY, p1⟩, ⟨rX, p0⟩] S1x1x8x256x256.size (by rfl) y

/-! ## The body's triple -/

set_option maxHeartbeats 1000000 in
/-- On whole staging buffers, the inputs' at contents `x0`, `x1`, `x2` and the result's at anything, the body runs to
    the end, leaves the inputs' as they were and the result's at `outBlock x0 x1 x2`. -/
theorem sound_kernel (c : Dev nD) (E : Set ℕ) (i : grid0.Coords)
    (arg2 : Memref sig .tc .vmem S1x8x256x256 .f32) (harg2 : arg2.IsWhole)
    (arg3 : Memref sig .tc .vmem S1x1x256x256 .f32) (harg3 : arg3.IsWhole)
    (arg4 : Memref sig .tc .vmem S1x1x256x256 .f32) (harg4 : arg4.IsWhole)
    (arg5 : Memref sig .tc .vmem S1x3x8x256x256 .f32) (harg5 : arg5.IsWhole)
    (x0 : Vec F S1x8x256x256 .f32) (x1 : Vec F S1x1x256x256 .f32) (x2 : Vec F S1x1x256x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__fd_kernel i arg2 harg2 arg3 harg3 arg4 harg4 arg5 harg5) K := by
  simp only [cc0__fd_kernel_eq_skeleton]; unfold cc0__fd_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _ _ _)

/-! ## The proof data -/

/-- On core `c`: the arrays as the kernel finds them; after the body at point `t` each input buffer at its block and
    the result buffer at `outBlock` of the three input blocks; nothing else carried from point to point; the field
    array held by the three input windows at a half, a quarter and a quarter. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := (BI.emp : sProp 𝕄)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunK.lean ====
/-
  The launch of the finite-difference kernel, and its frame.

  The field array is read through three windows.  At the launch the array, held whole, is divided among them — a
  half, a quarter and a quarter of its ownership, all at the contents the program started with — while the result
  array goes whole to the fourth window.  From there the pipeline runs the body at each of the 128 grid points
  (the body's triple is the point's obligation) and at the end every window's array holds what the write-backs
  made of it: the three input windows the untouched field, the output window the blocks the body left.
-/
import proofs.«110784_j85263690760521_1_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl

/-- The two arrays behind the four windows, held whole, are the four windows' holdings at entry: the field's
    ownership split in a half and two quarters (a half of the remaining half each), the result array whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Pipeline.Dat.arrays
  rw [bigSep_W0, BI.bigSep_eq_bigSepL_of_eq [main_arg0, main_v0] (by decide) (by decide)]
  rw [(arr_whole0 0).set_eq_univ, (arr_whole0 3).set_eq_univ,
    share_0, share_1, share_2, share_3]
  rw [BI.bigSepL_cons_cons, BI.bigSepL_singleton]
  show iprop((((c.tc : Thread nD τ).loc main_arg0) ↦{fullShare} V m c main_arg0) ∗ (((c.tc : Thread nD τ).loc main_v0) ↦{fullShare} V m c main_v0)) ⊢ _
  iintro ⟨Ha, Hv⟩
  ihave H := (pointsTo_share (PosShare.mem_left_op_right fullShare)).1 $$ Ha
  icases H with ⟨Hl, Hr⟩
  ihave H2 := (pointsTo_share (PosShare.mem_left_op_right fullShare.right)).1 $$ Hr
  icases H2 with ⟨Hrl, Hrr⟩
  isplitl [Hl]; · iexact Hl
  isplitl [Hrl]; · iexact Hrl
  isplitl [Hrr]; · iexact Hrr
  iexact Hv

/-! ## The run and the frame -/

set_option backward.isDefEq.respectTransparency.types false in
/-- From any memory with zero counters every fair execution ends, and at the end each window's array holds what
    the write-backs made of the contents the kernel found: `arrAt w N`. -/
theorem run_main : θ_run defs (onTc (τ := τ) (main (F := F))) (s₀ m ρ)
    (fun r => ∀ c : Dev nD, ∀ w : Fin cfg0.W,
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => (BI.emp : sProp 𝕄)) (Y := fun _ => (BI.emp : sProp 𝕄))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro -
      iempintro)
    (hout := fun c => by
      rw [scopedRest0_eq]
      iintro -
      isplitl <;> iempintro)
    (QY := fun _ _ => True)
    (hY := fun c s' => by
      iintro ⟨-, -, HSI⟩
      imodintro
      isplitr; · ipureintro; trivial
      iexact HSI)
    (hQ := fun s h c w => (h c).1 w)

/-- info: 'Cert.Kernel.Hand.run_main' depends on axioms: [propext, Classical.choice, Quot.sound] -/
#guard_msgs in #print axioms run_main

/-- The frame: the program runs to the end without a fault and the field array ends as it began (an input window's
    array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.Kernel.Hand

end
-- ==== Proof.BodyKI.lean ====
/-
  The run of the finite-difference kernel: every fair execution ends, faults nowhere, and leaves in the result
  array, block by block, what the body computes from the field's blocks; the field itself is left as it was.

  The kernel walks a grid of 4 × 32 points.  At point (b, ξ) it is handed THREE windows onto the one field array —
  the slab of eight x-planes `8ξ … 8ξ+7` of batch `b`, the single plane just before the slab and the single plane just
  after it, both taken modulo 256 — and one window onto the result array, the 3 × 8 × 256 × 256 block of the three
  gradient components over that slab.  The body fills the result block by three stores, one per component, which
  together tile it; so what it leaves there is a closed function of the three input blocks (`outBlock`).

  Because the three input windows read ONE array, the array's ownership is divided among them at the launch: a half,
  a quarter and a quarter of it.  Reading needs no more than a share, and nothing writes the field, so each window
  ends holding the contents it began with.
-/
import proofs.«110784_j85263690760521_1_alg».proof.Proof.Gen.KernelIdeal.Launch
import proofs.«110784_j85263690760521_1_alg».proof.Proof.Gen.KernelIdeal.Skeleton
import proofs.«110784_j85263690760521_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the kernel finds them, and the windows' blocks -/

/-- The program is the kernel alone, so the kernel finds every array as it was at the start. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block whenever the body is called. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result block -/

/-- The whole slab, the whole plane, and the three component slots of the result block. -/
abbrev rSlab : Rect S1x8x256x256 := Rect.unit (s := S1x8x256x256) ![0, 0, 0, 0] S1x8x256x256.size inb_S1x8x256x256_S1x8x256x256_0_0_0_0
abbrev rPlane : Rect S1x1x256x256 := Rect.unit (s := S1x1x256x256) ![0, 0, 0, 0] S1x1x256x256.size inb_S1x1x256x256_S1x1x256x256_0_0_0_0
abbrev rX : Rect S1x3x8x256x256 := Rect.unit (s := S1x3x8x256x256) ![0, 0, 0, 0, 0] S1x1x8x256x256.size inb_S1x3x8x256x256_S1x1x8x256x256_0_0_0_0_0
abbrev rY : Rect S1x3x8x256x256 := Rect.unit (s := S1x3x8x256x256) ![0, 1, 0, 0, 0] S1x1x8x256x256.size inb_S1x3x8x256x256_S1x1x8x256x256_0_1_0_0_0
abbrev rZ : Rect S1x3x8x256x256 := Rect.unit (s := S1x3x8x256x256) ![0, 2, 0, 0, 0] S1x1x8x256x256.size inb_S1x3x8x256x256_S1x1x8x256x256_0_2_0_0_0

/-- The result block after the body, from the slab `x0`, the plane before it `x1` and the plane after it `x2`: the
    three stores, the last one first — the z component, the y component, the x component. -/
def outBlock (x0 : Vec F S1x8x256x256 .f32) (x1 : Vec F S1x1x256x256 .f32) (x2 : Vec F S1x1x256x256 .f32) : Vec F S1x3x8x256x256 .f32 :=
  View.canon [⟨rZ, k0_pay1 (k0_pay2 (View.ld x0 rSlab)) (k0_pay5 (View.ld x0 rSlab)) (k0_pay6 (View.ld x0 rSlab))⟩,
    ⟨rY, k0_pay4 (View.ld x0 rSlab)⟩,
    ⟨rX, k0_pay3 (View.ld x0 rSlab) (View.ld x1 rPlane) (View.ld x2 rPlane)⟩]

/-- The three component slots tile the result block. -/
theorem cover_out (p2 p1 p0 : Vec F S1x1x8x256x256 .f32) (y : S1x3x8x256x256.Idx) :
    ∃ pc ∈ ([⟨rZ, p2⟩, ⟨rY, p1⟩, ⟨rX, p0⟩] : List (View.Piece (Elt F) S1x3x8x256x256 .f32)), y ∈ pc.1.set :=
  View.cover_of_tiled [⟨rZ, p2⟩, ⟨rY, p1⟩, ⟨rX, p0⟩] S1x1x8x256x256.size (by rfl) y

/-! ## The body's triple -/

set_option maxHeartbeats 1000000 in
/-- On whole staging buffers, the inputs' at contents `x0`, `x1`, `x2` and the result's at anything, the body runs to
    the end, leaves the inputs' as they were and the result's at `outBlock x0 x1 x2`. -/
theorem sound_kernel (c : Dev nD) (E : Set ℕ) (i : grid0.Coords)
    (arg2 : Memref sig .tc .vmem S1x8x256x256 .f32) (harg2 : arg2.IsWhole)
    (arg3 : Memref sig .tc .vmem S1x1x256x256 .f32) (harg3 : arg3.IsWhole)
    (arg4 : Memref sig .tc .vmem S1x1x256x256 .f32) (harg4 : arg4.IsWhole)
    (arg5 : Memref sig .tc .vmem S1x3x8x256x256 .f32) (harg5 : arg5.IsWhole)
    (x0 : Vec F S1x8x256x256 .f32) (x1 : Vec F S1x1x256x256 .f32) (x2 : Vec F S1x1x256x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__fd_kernel i arg2 harg2 arg3 harg3 arg4 harg4 arg5 harg5) K := by
  simp only [cc0__fd_kernel_eq_skeleton]; unfold cc0__fd_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _ _ _)

/-! ## The proof data -/

/-- On core `c`: the arrays as the kernel finds them; after the body at point `t` each input buffer at its block and
    the result buffer at `outBlock` of the three input blocks; nothing else carried from point to point; the field
    array held by the three input windows at a half, a quarter and a quarter. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := (BI.emp : sProp 𝕄)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunKI.lean ====
/-
  The launch of the finite-difference kernel, and its frame.

  The field array is read through three windows.  At the launch the array, held whole, is divided among them — a
  half, a quarter and a quarter of its ownership, all at the contents the program started with — while the result
  array goes whole to the fourth window.  From there the pipeline runs the body at each of the 128 grid points
  (the body's triple is the point's obligation) and at the end every window's array holds what the write-backs
  made of it: the three input windows the untouched field, the output window the blocks the body left.
-/
import proofs.«110784_j85263690760521_1_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl

/-- The two arrays behind the four windows, held whole, are the four windows' holdings at entry: the field's
    ownership split in a half and two quarters (a half of the remaining half each), the result array whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Pipeline.Dat.arrays
  rw [bigSep_W0, BI.bigSep_eq_bigSepL_of_eq [main_arg0, main_v0] (by decide) (by decide)]
  rw [(arr_whole0 0).set_eq_univ, (arr_whole0 3).set_eq_univ,
    share_0, share_1, share_2, share_3]
  rw [BI.bigSepL_cons_cons, BI.bigSepL_singleton]
  show iprop((((c.tc : Thread nD τ).loc main_arg0) ↦{fullShare} V m c main_arg0) ∗ (((c.tc : Thread nD τ).loc main_v0) ↦{fullShare} V m c main_v0)) ⊢ _
  iintro ⟨Ha, Hv⟩
  ihave H := (pointsTo_share (PosShare.mem_left_op_right fullShare)).1 $$ Ha
  icases H with ⟨Hl, Hr⟩
  ihave H2 := (pointsTo_share (PosShare.mem_left_op_right fullShare.right)).1 $$ Hr
  icases H2 with ⟨Hrl, Hrr⟩
  isplitl [Hl]; · iexact Hl
  isplitl [Hrl]; · iexact Hrl
  isplitl [Hrr]; · iexact Hrr
  iexact Hv

/-! ## The run and the frame -/

set_option backward.isDefEq.respectTransparency.types false in
/-- From any memory with zero counters every fair execution ends, and at the end each window's array holds what
    the write-backs made of the contents the kernel found: `arrAt w N`. -/
theorem run_main : θ_run defs (onTc (τ := τ) (main (F := F))) (s₀ m ρ)
    (fun r => ∀ c : Dev nD, ∀ w : Fin cfg0.W,
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => (BI.emp : sProp 𝕄)) (Y := fun _ => (BI.emp : sProp 𝕄))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro -
      iempintro)
    (hout := fun c => by
      rw [scopedRest0_eq]
      iintro -
      isplitl <;> iempintro)
    (QY := fun _ _ => True)
    (hY := fun c s' => by
      iintro ⟨-, -, HSI⟩
      imodintro
      isplitr; · ipureintro; trivial
      iexact HSI)
    (hQ := fun s h c w => (h c).1 w)

/-- info: 'Cert.KernelIdeal.Hand.run_main' depends on axioms: [propext, Classical.choice, Quot.sound] -/
#guard_msgs in #print axioms run_main

/-- The frame: the program runs to the end without a fault and the field array ends as it began (an input window's
    array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.KernelIdeal.Hand

end
-- ==== Proof.Spec.lean ====
/-
  The central difference with periodic wrap-around, as one function of the field.

  A field `v` lives on a `4 × 256 × 256 × 256` lattice (a batch axis and three periodic space axes).  Its discrete
  gradient has three components; component `k` at a site is half the difference between the field one step forward
  and one step backward along space axis `k`, the steps taken modulo 256:

      grad v (b, k, x, y, z) = (v (b, site moved +1 along k) - v (b, site moved -1 along k)) · ½ .

  Both programs compute this: one multiplies the difference by the float `0.5`, the other divides it by the float
  `2.0`.  On the extended reals dividing by the real number 2 is multiplying by the real number ½ for EVERY operand,
  the two infinities included (`half_law`), so no finiteness of the field is needed to join the two sides.
-/
import Idealize.ShloMosaic.PureOps.Ideal
import Idealize.ShloMosaic.Lib.ValueIdx

noncomputable section

namespace Cert.Stencil

open Idealize.ShloMosaic Idealize.ShloMosaic.ValueIdx

/-- The field's lattice and the gradient's. -/
abbrev SIn : Shape := ⟨4, ![4, 256, 256, 256]⟩
abbrev SOut : Shape := ⟨5, ![4, 3, 256, 256, 256]⟩

/-- One step forward on a periodic axis of 256 sites. -/
def up (i : Fin 256) : Fin 256 := ⟨(i.val + 1) % 256, Nat.mod_lt _ (by decide)⟩
/-- One step backward on a periodic axis of 256 sites (`-1 ≡ 255`). -/
def dn (i : Fin 256) : Fin 256 := ⟨(i.val + 255) % 256, Nat.mod_lt _ (by decide)⟩

theorem up_val (i : Fin 256) : (up i).val = (i.val + 1) % 256 := rfl
theorem dn_val (i : Fin 256) : (dn i).val = (i.val + 255) % 256 := rfl

/-- The float `0.5` denotes the real number ½. -/
theorem ofBits_half : Ideal.ofBits .f32 0x3F000000#32 = ((1 / 2 : ℝ) : EReal) := by
  simp [Ideal.ofBits, Ideal.ieee, -EReal.coe_mul]; norm_num

/-- The float `2.0` denotes the real number 2. -/
theorem ofBits_two : Ideal.ofBits .f32 0x40000000#32 = ((2 : ℝ) : EReal) := by
  simp [Ideal.ofBits, Ideal.ieee, -EReal.coe_mul]; norm_num

/-- Dividing by `2.0` is multiplying by `0.5`, on every extended real. -/
theorem half_law (x : EReal) :
    Ideal.div x (Ideal.ofBits .f32 0x40000000#32) = x * Ideal.ofBits .f32 0x3F000000#32 := by
  rw [ofBits_two, ofBits_half, Ideal.div_coe (by norm_num : (2 : ℝ) ≠ 0)]

/-- The gradient by coordinates: component `k` of the central difference at site `(b, x, y, z)`. -/
def gradAt (v : SIn.Idx → EReal) (b : Fin 4) (k : Fin 3) (x y z : Fin 256) : EReal :=
  match k with
  | ⟨0, _⟩ => (v (ix4 b (up x) y z) - v (ix4 b (dn x) y z)) * Ideal.ofBits .f32 0x3F000000#32
  | ⟨1, _⟩ => (v (ix4 b x (up y) z) - v (ix4 b x (dn y) z)) * Ideal.ofBits .f32 0x3F000000#32
  | ⟨2, _⟩ => (v (ix4 b x y (up z)) - v (ix4 b x y (dn z))) * Ideal.ofBits .f32 0x3F000000#32

/-- The gradient as one function of the field, index by index. -/
def grad (v : SIn.Idx → EReal) : SOut.Idx → EReal :=
  fun j => gradAt v (j 0) (j 1) (j 2) (j 3) (j 4)

theorem grad_ix5 (v : SIn.Idx → EReal) (b : Fin 4) (k : Fin 3) (x y z : Fin 256) :
    grad v (ix5 b k x y z) = gradAt v b k x y z := rfl

theorem gradAt_0 (v : SIn.Idx → EReal) (b : Fin 4) (x y z : Fin 256) :
    gradAt v b 0 x y z = (v (ix4 b (up x) y z) - v (ix4 b (dn x) y z)) * Ideal.ofBits .f32 0x3F000000#32 := rfl
theorem gradAt_1 (v : SIn.Idx → EReal) (b : Fin 4) (x y z : Fin 256) :
    gradAt v b 1 x y z = (v (ix4 b x (up y) z) - v (ix4 b x (dn y) z)) * Ideal.ofBits .f32 0x3F000000#32 := rfl
theorem gradAt_2 (v : SIn.Idx → EReal) (b : Fin 4) (x y z : Fin 256) :
    gradAt v b 2 x y z = (v (ix4 b x y (up z)) - v (ix4 b x y (dn z))) * Ideal.ofBits .f32 0x3F000000#32 := rfl

end Cert.Stencil

end
-- ==== Proof.BlockValue.lean ====
/-
  The kernel body's result block, read one entry at a time.

  At a grid point the body holds the slab of eight x-planes of the field, the single plane just before the slab and the
  single plane just after it.  Each of the three gradient components over the slab is a roll of the slab by one site
  forward along a space axis, minus the roll by one site backward, times one half.  Along y and z the roll stays
  inside the slab and wraps modulo 256; along x the roll leaves the slab at its two ends, where the forward roll takes
  the plane after the slab and the backward roll the plane before it.  A roll is written as a two-piece
  concatenation of slices, so an entry of a roll is read by asking in which piece the rolled coordinate falls.
-/
import proofs.«110784_j85263690760521_1_alg».proof.Proof.BodyKI
import proofs.«110784_j85263690760521_1_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Cert.Stencil Idealize.ShloMosaic Idealize.ShloMosaic.ValueIdx

/-! ## Unit axes dropped and added -/

section Layout
variable {α : Type}

/-- A three-axis array given two leading unit axes keeps every site: (u, u', r, y, z) reads (r, y, z). -/
theorem cast_out5 (V : S8x256x256.Idx → α) (u u' : Fin 1) (r : Fin 8) (y z : Fin 256) :
    shapeCast S1x1x8x256x256 V shapeCasts_S8x256x256_S1x1x8x256x256 (ix5 u u' r y z) = V (ix3 r y z) :=
  shapeCast_apply V _ _ _ (by
    have hu : u.val = 0 := by omega
    have hu' : u'.val = 0 := by omega
    rw [Shape.rowMajor_val_five, Shape.rowMajor_val_three]
    show (r.val * 256 + y.val) * 256 + z.val = ((((u.val * 1 + u'.val) * 8 + r.val) * 256 + y.val) * 256 + z.val)
    rw [hu, hu']; omega)

/-- A plane with its two leading unit axes dropped: (y, z) reads (0, 0, y, z). -/
theorem cast_plane2 (P : S1x1x256x256.Idx → α) (y z : Fin 256) :
    shapeCast S256x256 P shapeCasts_S1x1x256x256_S256x256 (ix2 y z) = P (ix4 (0 : Fin 1) (0 : Fin 1) y z) :=
  shapeCast_apply P _ _ _ (by
    rw [Shape.rowMajor_val_four, Shape.rowMajor_val_two]
    show ((0 * 1 + 0) * 256 + y.val) * 256 + z.val = y.val * 256 + z.val
    omega)

/-- A plane as a one-plane slab: (u, y, z) reads (0, 0, y, z) of the plane's block. -/
theorem cast_plane3 (P : S1x1x256x256.Idx → α) (u : Fin 1) (y z : Fin 256) :
    shapeCast S1x256x256 (shapeCast S256x256 P shapeCasts_S1x1x256x256_S256x256) shapeCasts_S256x256_S1x256x256 (ix3 u y z)
      = P (ix4 (0 : Fin 1) (0 : Fin 1) y z) :=
  (shapeCast_ab_1ab_apply _ _ u y z).trans (cast_plane2 P y z)

/-! ## The rolls by one site

Each roll of the slab V is the concatenation, along the rolled axis, of the slab without its first (or last) layer
and that one layer.  An entry whose rolled coordinate falls in the long piece reads its neighbour; the entry at the
end of the axis reads the layer at the other end (along y and z), or the neighbouring plane (along x). -/

/-- Forward along y: (r, y, z) reads (r, y + 1 mod 256, z). -/
theorem roll_y_up (V : S8x256x256.Idx → α) (r : Fin 8) (y z : Fin 256) :
    concatenate S8x256x256 1 [⟨S8x255x256, extractStridedSlice S8x255x256 ![0, 1, 0] V slices_S8x256x256_o0_1_0_S8x255x256⟩,
        ⟨S8x1x256, extractStridedSlice S8x1x256 ![0, 0, 0] V slices_S8x256x256_o0_0_0_S8x1x256⟩]
      concatenates_S8x255x256_S8x1x256_S8x256x256_d1 (ix3 r y z) = V (ix3 r (up y) z) := by
  have hy : y.val < 256 := y.isLt
  by_cases h : y.val < 255
  · refine (concatenate_pair_apply_left (t := S8x256x256) (s₁ := S8x255x256) (s₂ := S8x1x256) 1 _ _ _ (ix3 r y z) rfl
      (ix3 r (⟨y.val, h⟩ : Fin 255) z) (fun b => match b with | ⟨0, _⟩ => rfl | ⟨1, _⟩ => rfl | ⟨2, _⟩ => rfl)).trans ?_
    exact extractStridedSlice_apply _ V _ _ (ix3 r (up y) z) (fun a => match a with
      | ⟨0, _⟩ => by show r.val = 0 + r.val; omega
      | ⟨1, _⟩ => by show (y.val + 1) % 256 = 1 + y.val; omega
      | ⟨2, _⟩ => by show z.val = 0 + z.val; omega)
  · refine (concatenate_pair_apply_right (t := S8x256x256) (s₁ := S8x255x256) (s₂ := S8x1x256) 1 _ _ _ (ix3 r y z) rfl rfl
      (ix3 r (0 : Fin 1) z) (fun b hb => match b with | ⟨0, _⟩ => rfl | ⟨1, _⟩ => absurd rfl hb | ⟨2, _⟩ => rfl)
      (by show 0 + 255 = y.val; omega)).trans ?_
    exact extractStridedSlice_apply _ V _ _ (ix3 r (up y) z) (fun a => match a with
      | ⟨0, _⟩ => by show r.val = 0 + r.val; omega
      | ⟨1, _⟩ => by show (y.val + 1) % 256 = 0 + 0; omega
      | ⟨2, _⟩ => by show z.val = 0 + z.val; omega)

/-- Backward along y: (r, y, z) reads (r, y - 1 mod 256, z). -/
theorem roll_y_dn (V : S8x256x256.Idx → α) (r : Fin 8) (y z : Fin 256) :
    concatenate S8x256x256 1 [⟨S8x1x256, extractStridedSlice S8x1x256 ![0, 255, 0] V slices_S8x256x256_o0_255_0_S8x1x256⟩,
        ⟨S8x255x256, extractStridedSlice S8x255x256 ![0, 0, 0] V slices_S8x256x256_o0_0_0_S8x255x256⟩]
      concatenates_S8x1x256_S8x255x256_S8x256x256_d1 (ix3 r y z) = V (ix3 r (dn y) z) := by
  have hy : y.val < 256 := y.isLt
  by_cases h : y.val < 1
  · refine (concatenate_pair_apply_left (t := S8x256x256) (s₁ := S8x1x256) (s₂ := S8x255x256) 1 _ _ _ (ix3 r y z) rfl
      (ix3 r (⟨y.val, h⟩ : Fin 1) z) (fun b => match b with | ⟨0, _⟩ => rfl | ⟨1, _⟩ => rfl | ⟨2, _⟩ => rfl)).trans ?_
    exact extractStridedSlice_apply _ V _ _ (ix3 r (dn y) z) (fun a => match a with
      | ⟨0, _⟩ => by show r.val = 0 + r.val; omega
      | ⟨1, _⟩ => by show (y.val + 255) % 256 = 255 + y.val; omega
      | ⟨2, _⟩ => by show z.val = 0 + z.val; omega)
  · refine (concatenate_pair_apply_right (t := S8x256x256) (s₁ := S8x1x256) (s₂ := S8x255x256) 1 _ _ _ (ix3 r y z) rfl rfl
      (ix3 r (⟨y.val - 1, by omega⟩ : Fin 255) z) (fun b hb => match b with | ⟨0, _⟩ => rfl | ⟨1, _⟩ => absurd rfl hb | ⟨2, _⟩ => rfl)
      (by show y.val - 1 + 1 = y.val; omega)).trans ?_
    exact extractStridedSlice_apply _ V _ _ (ix3 r (dn y) z) (fun a => match a with
      | ⟨0, _⟩ => by show r.val = 0 + r.val; omega
      | ⟨1, _⟩ => by show (y.val + 255) % 256 = 0 + (y.val - 1); omega
      | ⟨2, _⟩ => by show z.val = 0 + z.val; omega)

/-- Forward along z: (r, y, z) reads (r, y, z + 1 mod 256). -/
theorem roll_z_up (V : S8x256x256.Idx → α) (r : Fin 8) (y z : Fin 256) :
    concatenate S8x256x256 2 [⟨S8x256x255, extractStridedSlice S8x256x255 ![0, 0, 1] V slices_S8x256x256_o0_0_1_S8x256x255⟩,
        ⟨S8x256x1, extractStridedSlice S8x256x1 ![0, 0, 0] V slices_S8x256x256_o0_0_0_S8x256x1⟩]
      concatenates_S8x256x255_S8x256x1_S8x256x256_d2 (ix3 r y z) = V (ix3 r y (up z)) := by
  have hz : z.val < 256 := z.isLt
  by_cases h : z.val < 255
  · refine (concatenate_pair_apply_left (t := S8x256x256) (s₁ := S8x256x255) (s₂ := S8x256x1) 2 _ _ _ (ix3 r y z) rfl
      (ix3 r y (⟨z.val, h⟩ : Fin 255)) (fun b => match b with | ⟨0, _⟩ => rfl | ⟨1, _⟩ => rfl | ⟨2, _⟩ => rfl)).trans ?_
    exact extractStridedSlice_apply _ V _ _ (ix3 r y (up z)) (fun a => match a with
      | ⟨0, _⟩ => by show r.val = 0 + r.val; omega
      | ⟨1, _⟩ => by show y.val = 0 + y.val; omega
      | ⟨2, _⟩ => by show (z.val + 1) % 256 = 1 + z.val; omega)
  · refine (concatenate_pair_apply_right (t := S8x256x256) (s₁ := S8x256x255) (s₂ := S8x256x1) 2 _ _ _ (ix3 r y z) rfl rfl
      (ix3 r y (0 : Fin 1)) (fun b hb => match b with | ⟨0, _⟩ => rfl | ⟨1, _⟩ => rfl | ⟨2, _⟩ => absurd rfl hb)
      (by show 0 + 255 = z.val; omega)).trans ?_
    exact extractStridedSlice_apply _ V _ _ (ix3 r y (up z)) (fun a => match a with
      | ⟨0, _⟩ => by show r.val = 0 + r.val; omega
      | ⟨1, _⟩ => by show y.val = 0 + y.val; omega
      | ⟨2, _⟩ => by show (z.val + 1) % 256 = 0 + 0; omega)

/-- Backward along z: (r, y, z) reads (r, y, z - 1 mod 256). -/
theorem roll_z_dn (V : S8x256x256.Idx → α) (r : Fin 8) (y z : Fin 256) :
    concatenate S8x256x256 2 [⟨S8x256x1, extractStridedSlice S8x256x1 ![0, 0, 255] V slices_S8x256x256_o0_0_255_S8x256x1⟩,
        ⟨S8x256x255, extractStridedSlice S8x256x255 ![0, 0, 0] V slices_S8x256x256_o0_0_0_S8x256x255⟩]
      concatenates_S8x256x1_S8x256x255_S8x256x256_d2 (ix3 r y z) = V (ix3 r y (dn z)) := by
  have hz : z.val < 256 := z.isLt
  by_cases h : z.val < 1
  · refine (concatenate_pair_apply_left (t := S8x256x256) (s₁ := S8x256x1) (s₂ := S8x256x255) 2 _ _ _ (ix3 r y z) rfl
      (ix3 r y (⟨z.val, h⟩ : Fin 1)) (fun b => match b with | ⟨0, _⟩ => rfl | ⟨1, _⟩ => rfl | ⟨2, _⟩ => rfl)).trans ?_
    exact extractStridedSlice_apply _ V _ _ (ix3 r y (dn z)) (fun a => match a with
      | ⟨0, _⟩ => by show r.val = 0 + r.val; omega
      | ⟨1, _⟩ => by show y.val = 0 + y.val; omega
      | ⟨2, _⟩ => by show (z.val + 255) % 256 = 255 + z.val; omega)
  · refine (concatenate_pair_apply_right (t := S8x256x256) (s₁ := S8x256x1) (s₂ := S8x256x255) 2 _ _ _ (ix3 r y z) rfl rfl
      (ix3 r y (⟨z.val - 1, by omega⟩ : Fin 255)) (fun b hb => match b with | ⟨0, _⟩ => rfl | ⟨1, _⟩ => rfl | ⟨2, _⟩ => absurd rfl hb)
      (by show z.val - 1 + 1 = z.val; omega)).trans ?_
    exact extractStridedSlice_apply _ V _ _ (ix3 r y (dn z)) (fun a => match a with
      | ⟨0, _⟩ => by show r.val = 0 + r.val; omega
      | ⟨1, _⟩ => by show y.val = 0 + y.val; omega
      | ⟨2, _⟩ => by show (z.val + 255) % 256 = 0 + (z.val - 1); omega)

/-- Forward along x: inside the slab the next plane, at the slab's last plane the one-plane slab Q laid behind it. -/
theorem roll_x_up (V : S8x256x256.Idx → α) (Q : S1x256x256.Idx → α) (r : Fin 8) (y z : Fin 256) :
    concatenate S8x256x256 0 [⟨S7x256x256, extractStridedSlice S7x256x256 ![1, 0, 0] V slices_S8x256x256_o1_0_0_S7x256x256⟩,
        ⟨S1x256x256, Q⟩]
      concatenates_S7x256x256_S1x256x256_S8x256x256_d0 (ix3 r y z)
      = if h : r.val + 1 < 8 then V (ix3 (⟨r.val + 1, h⟩ : Fin 8) y z) else Q (ix3 (0 : Fin 1) y z) := by
  have hr : r.val < 8 := r.isLt
  by_cases h : r.val + 1 < 8
  · rw [dif_pos h]
    refine (concatenate_pair_apply_left (t := S8x256x256) (s₁ := S7x256x256) (s₂ := S1x256x256) 0 _ _ _ (ix3 r y z) rfl
      (ix3 (⟨r.val, by omega⟩ : Fin 7) y z) (fun b => match b with | ⟨0, _⟩ => rfl | ⟨1, _⟩ => rfl | ⟨2, _⟩ => rfl)).trans ?_
    exact extractStridedSlice_apply _ V _ _ (ix3 (⟨r.val + 1, h⟩ : Fin 8) y z) (fun a => match a with
      | ⟨0, _⟩ => by show r.val + 1 = 1 + r.val; omega
      | ⟨1, _⟩ => by show y.val = 0 + y.val; omega
      | ⟨2, _⟩ => by show z.val = 0 + z.val; omega)
  · rw [dif_neg h]
    exact concatenate_pair_apply_right (t := S8x256x256) (s₁ := S7x256x256) (s₂ := S1x256x256) 0 _ _ _ (ix3 r y z) rfl rfl
      (ix3 (0 : Fin 1) y z) (fun b hb => match b with | ⟨0, _⟩ => absurd rfl hb | ⟨1, _⟩ => rfl | ⟨2, _⟩ => rfl)
      (by show 0 + 7 = r.val; omega)

/-- Backward along x: inside the slab the previous plane, at the slab's first plane the one-plane slab Q laid before it. -/
theorem roll_x_dn (V : S8x256x256.Idx → α) (Q : S1x256x256.Idx → α) (r : Fin 8) (y z : Fin 256) :
    concatenate S8x256x256 0 [⟨S1x256x256, Q⟩,
        ⟨S7x256x256, extractStridedSlice S7x256x256 ![0, 0, 0] V slices_S8x256x256_o0_0_0_S7x256x256⟩]
      concatenates_S1x256x256_S7x256x256_S8x256x256_d0 (ix3 r y z)
      = if h : 0 < r.val then V (ix3 (⟨r.val - 1, by omega⟩ : Fin 8) y z) else Q (ix3 (0 : Fin 1) y z) := by
  have hr : r.val < 8 := r.isLt
  by_cases h : 0 < r.val
  · rw [dif_pos h]
    refine (concatenate_pair_apply_right (t := S8x256x256) (s₁ := S1x256x256) (s₂ := S7x256x256) 0 _ _ _ (ix3 r y z) rfl rfl
      (ix3 (⟨r.val - 1, by omega⟩ : Fin 7) y z) (fun b hb => match b with | ⟨0, _⟩ => absurd rfl hb | ⟨1, _⟩ => rfl | ⟨2, _⟩ => rfl)
      (by show r.val - 1 + 1 = r.val; omega)).trans ?_
    exact extractStridedSlice_apply _ V _ _ (ix3 (⟨r.val - 1, by omega⟩ : Fin 8) y z) (fun a => match a with
      | ⟨0, _⟩ => by show r.val - 1 = 0 + (r.val - 1); omega
      | ⟨1, _⟩ => by show y.val = 0 + y.val; omega
      | ⟨2, _⟩ => by show z.val = 0 + z.val; omega)
  · rw [dif_neg h]
    exact concatenate_pair_apply_left (t := S8x256x256) (s₁ := S1x256x256) (s₂ := S7x256x256) 0 _ _ _ (ix3 r y z) rfl
      (ix3 (0 : Fin 1) y z) (fun b => match b with
        | ⟨0, _⟩ => by show 0 = r.val; omega
        | ⟨1, _⟩ => rfl
        | ⟨2, _⟩ => rfl)

end Layout

/-! ## The payloads at an entry -/

/-- The slab without its batch axis: (r, y, z) reads (0, r, y, z). -/
theorem pay2_apply (v0 : FVec Ideal S1x8x256x256 .f32) (r : Fin 8) (y z : Fin 256) :
    k0_pay2 (F := Ideal) v0 (ix3 r y z) = v0 (ix4 (0 : Fin 1) r y z) := by
  unfold k0_pay2
  exact shapeCast_1abc_abc_apply v0 _ r y z

/-- The y component: forward neighbour minus backward neighbour along y, halved. -/
theorem pay4_apply (v0 : FVec Ideal S1x8x256x256 .f32) (u u' : Fin 1) (r : Fin 8) (y z : Fin 256) :
    k0_pay4 (F := Ideal) v0 (ix5 u u' r y z)
      = (v0 (ix4 (0 : Fin 1) r (up y) z) - v0 (ix4 (0 : Fin 1) r (dn y) z)) * Ideal.ofBits .f32 0x3F000000#32 := by
  have e1 := (roll_y_up (k0_pay2 (F := Ideal) v0) r y z).trans (pay2_apply v0 r (up y) z)
  have e2 := (roll_y_dn (k0_pay2 (F := Ideal) v0) r y z).trans (pay2_apply v0 r (dn y) z)
  unfold k0_pay4
  refine (cast_out5 _ u u' r y z).trans ?_
  exact congrArg₂ (fun a b : EReal => (a - b) * Ideal.ofBits .f32 0x3F000000#32) e1 e2

/-- The z component: forward neighbour minus backward neighbour along z, halved. -/
theorem pay1_apply (v0 : FVec Ideal S1x8x256x256 .f32) (u u' : Fin 1) (r : Fin 8) (y z : Fin 256) :
    k0_pay1 (F := Ideal) (k0_pay2 v0) (k0_pay5 v0) (k0_pay6 v0) (ix5 u u' r y z)
      = (v0 (ix4 (0 : Fin 1) r y (up z)) - v0 (ix4 (0 : Fin 1) r y (dn z))) * Ideal.ofBits .f32 0x3F000000#32 := by
  have e1 := (roll_z_up (k0_pay2 (F := Ideal) v0) r y z).trans (pay2_apply v0 r y (up z))
  have e2 := (roll_z_dn (k0_pay2 (F := Ideal) v0) r y z).trans (pay2_apply v0 r y (dn z))
  unfold k0_pay1 k0_pay5 k0_pay6
  refine (cast_out5 _ u u' r y z).trans ?_
  exact congrArg₂ (fun a b : EReal => (a - b) * Ideal.ofBits .f32 0x3F000000#32) e1 e2

/-- The x component: forward neighbour minus backward neighbour along x, halved; past the slab's ends the neighbours
    are the plane after the slab (v4) and the plane before it (v2). -/
theorem pay3_apply (v0 : FVec Ideal S1x8x256x256 .f32) (v2 v4 : FVec Ideal S1x1x256x256 .f32) (u u' : Fin 1) (r : Fin 8)
    (y z : Fin 256) :
    k0_pay3 (F := Ideal) v0 v2 v4 (ix5 u u' r y z)
      = ((if h : r.val + 1 < 8 then v0 (ix4 (0 : Fin 1) (⟨r.val + 1, h⟩ : Fin 8) y z) else v4 (ix4 (0 : Fin 1) (0 : Fin 1) y z))
          - (if h : 0 < r.val then v0 (ix4 (0 : Fin 1) (⟨r.val - 1, by omega⟩ : Fin 8) y z) else v2 (ix4 (0 : Fin 1) (0 : Fin 1) y z)))
        * Ideal.ofBits .f32 0x3F000000#32 := by
  have e1 := roll_x_up (k0_pay2 (F := Ideal) v0)
    (shapeCast S1x256x256 (shapeCast S256x256 v4 shapeCasts_S1x1x256x256_S256x256) shapeCasts_S256x256_S1x256x256) r y z
  have e2 := roll_x_dn (k0_pay2 (F := Ideal) v0)
    (shapeCast S1x256x256 (shapeCast S256x256 v2 shapeCasts_S1x1x256x256_S256x256) shapeCasts_S256x256_S1x256x256) r y z
  rw [cast_plane3] at e1 e2
  simp only [pay2_apply] at e1 e2
  unfold k0_pay3
  refine (cast_out5 _ u u' r y z).trans ?_
  exact congrArg₂ (fun a b : EReal => (a - b) * Ideal.ofBits .f32 0x3F000000#32) e1 e2

/-! ## The three stores

The result block is written by three stores, one per component, each through the slot of that component: the
sub-block of all entries whose component coordinate is k, for k = 0 (x), 1 (y), 2 (z).  An entry (0, k, r, y, z)
lies in slot k alone, at the slot's own position (0, 0, r, y, z); so it holds what the store of component k put
there. -/

/-- The loads read the whole blocks: the offsets are all zero. -/
theorem zero_off4 : (![0, 0, 0, 0] : Fin 4 → Nat) = fun _ => 0 :=
  funext fun a => match a with | ⟨0, _⟩ => rfl | ⟨1, _⟩ => rfl | ⟨2, _⟩ => rfl | ⟨3, _⟩ => rfl

theorem ld_slab (x0 : FVec Ideal S1x8x256x256 .f32) : View.ld (Val := Elt Ideal) (e' := .f32) x0 rSlab = x0 :=
  View.ld_unit_zero (Val := Elt Ideal) (S := S1x8x256x256) (e := .f32) zero_off4 inb_S1x8x256x256_S1x8x256x256_0_0_0_0 x0

theorem ld_plane (x1 : FVec Ideal S1x1x256x256 .f32) : View.ld (Val := Elt Ideal) (e' := .f32) x1 rPlane = x1 :=
  View.ld_unit_zero (Val := Elt Ideal) (S := S1x1x256x256) (e := .f32) zero_off4 inb_S1x1x256x256_S1x1x256x256_0_0_0_0 x1

/-- Position (0, 0, r, y, z) of the x slot is entry (0, 0, r, y, z) of the block. -/
theorem emb_rX (r : Fin 8) (y z : Fin 256) :
    rX.emb (ix5 (0 : Fin 1) (0 : Fin 1) r y z) = ix5 (0 : Fin 1) (0 : Fin 3) r y z := by
  funext a; apply Fin.ext
  match a with
  | ⟨0, _⟩ => rfl
  | ⟨1, _⟩ => rfl
  | ⟨2, _⟩ => show 0 + 1 * r.val = r.val; omega
  | ⟨3, _⟩ => show 0 + 1 * y.val = y.val; omega
  | ⟨4, _⟩ => show 0 + 1 * z.val = z.val; omega

/-- Position (0, 0, r, y, z) of the y slot is entry (0, 1, r, y, z) of the block. -/
theorem emb_rY (r : Fin 8) (y z : Fin 256) :
    rY.emb (ix5 (0 : Fin 1) (0 : Fin 1) r y z) = ix5 (0 : Fin 1) (1 : Fin 3) r y z := by
  funext a; apply Fin.ext
  match a with
  | ⟨0, _⟩ => rfl
  | ⟨1, _⟩ => rfl
  | ⟨2, _⟩ => show 0 + 1 * r.val = r.val; omega
  | ⟨3, _⟩ => show 0 + 1 * y.val = y.val; omega
  | ⟨4, _⟩ => show 0 + 1 * z.val = z.val; omega

/-- Position (0, 0, r, y, z) of the z slot is entry (0, 2, r, y, z) of the block. -/
theorem emb_rZ (r : Fin 8) (y z : Fin 256) :
    rZ.emb (ix5 (0 : Fin 1) (0 : Fin 1) r y z) = ix5 (0 : Fin 1) (2 : Fin 3) r y z := by
  funext a; apply Fin.ext
  match a with
  | ⟨0, _⟩ => rfl
  | ⟨1, _⟩ => rfl
  | ⟨2, _⟩ => show 0 + 1 * r.val = r.val; omega
  | ⟨3, _⟩ => show 0 + 1 * y.val = y.val; omega
  | ⟨4, _⟩ => show 0 + 1 * z.val = z.val; omega

/-- An entry of component 0 or 1 is outside the z slot, whose component coordinate is 2 … -/
theorem not_mem_rZ (k : Fin 3) (hk : k.val < 2) (r : Fin 8) (y z : Fin 256) :
    ix5 (0 : Fin 1) k r y z ∉ rZ.set := fun h => by
  have h1 := (Rect.mem_set_unit.mp h) 1
  have h2 : 2 ≤ k.val := h1.1
  omega

/-- … and an entry of component 0 is outside the y slot, whose component coordinate is 1. -/
theorem not_mem_rY (r : Fin 8) (y z : Fin 256) :
    ix5 (0 : Fin 1) (0 : Fin 3) r y z ∉ rY.set := fun h => by
  have h1 := (Rect.mem_set_unit.mp h) 1
  have h2 : 1 ≤ 0 := h1.1
  omega

section Slots
variable {Val : EltTy → Type} [∀ e, Nonempty (Val e)] (pZ pY pX : S1x1x8x256x256.Idx → Val .f32)

/-- After the three stores an entry of component 2 holds the z store's payload, … -/
theorem canon_at_z (r : Fin 8) (y z : Fin 256) :
    View.canon ([⟨rZ, pZ⟩, ⟨rY, pY⟩, ⟨rX, pX⟩] : List (View.Piece Val S1x3x8x256x256 .f32)) (ix5 (0 : Fin 1) (2 : Fin 3) r y z)
      = pZ (ix5 (0 : Fin 1) (0 : Fin 1) r y z) := by
  rw [← emb_rZ r y z]
  exact View.canon_cons_emb rZ pZ _ _

/-- … one of component 1 the y store's, … -/
theorem canon_at_y (r : Fin 8) (y z : Fin 256) :
    View.canon ([⟨rZ, pZ⟩, ⟨rY, pY⟩, ⟨rX, pX⟩] : List (View.Piece Val S1x3x8x256x256 .f32)) (ix5 (0 : Fin 1) (1 : Fin 3) r y z)
      = pY (ix5 (0 : Fin 1) (0 : Fin 1) r y z) := by
  refine (View.canon_cons_of_not_mem (⟨rZ, pZ⟩ : View.Piece Val S1x3x8x256x256 .f32) [⟨rY, pY⟩, ⟨rX, pX⟩]
    (not_mem_rZ 1 (by decide) r y z)).trans ?_
  rw [← emb_rY r y z]
  exact View.canon_cons_emb rY pY _ _

/-- … and one of component 0 the x store's. -/
theorem canon_at_x (r : Fin 8) (y z : Fin 256) :
    View.canon ([⟨rZ, pZ⟩, ⟨rY, pY⟩, ⟨rX, pX⟩] : List (View.Piece Val S1x3x8x256x256 .f32)) (ix5 (0 : Fin 1) (0 : Fin 3) r y z)
      = pX (ix5 (0 : Fin 1) (0 : Fin 1) r y z) := by
  refine (View.canon_cons_of_not_mem (⟨rZ, pZ⟩ : View.Piece Val S1x3x8x256x256 .f32) [⟨rY, pY⟩, ⟨rX, pX⟩]
    (not_mem_rZ 0 (by decide) r y z)).trans ?_
  refine (View.canon_cons_of_not_mem (⟨rY, pY⟩ : View.Piece Val S1x3x8x256x256 .f32) [⟨rX, pX⟩]
    (not_mem_rY r y z)).trans ?_
  rw [← emb_rX r y z]
  exact View.canon_cons_emb rX pX _ _

end Slots

/-! ## The result block at an entry -/

/-- The x component over the slab: inside the slab the two neighbouring planes of the slab, at its first plane the
    plane before the slab, at its last plane the plane after it. -/
theorem outBlock_x (x0 : FVec Ideal S1x8x256x256 .f32) (x1 x2 : FVec Ideal S1x1x256x256 .f32) (r : Fin 8) (y z : Fin 256) :
    outBlock (F := Ideal) x0 x1 x2 (ix5 (0 : Fin 1) (0 : Fin 3) r y z)
      = ((if h : r.val + 1 < 8 then x0 (ix4 (0 : Fin 1) (⟨r.val + 1, h⟩ : Fin 8) y z) else x2 (ix4 (0 : Fin 1) (0 : Fin 1) y z))
          - (if h : 0 < r.val then x0 (ix4 (0 : Fin 1) (⟨r.val - 1, by omega⟩ : Fin 8) y z) else x1 (ix4 (0 : Fin 1) (0 : Fin 1) y z)))
        * Ideal.ofBits .f32 0x3F000000#32 := by
  unfold outBlock
  refine (canon_at_x (Val := Elt Ideal) _ _ _ r y z).trans ?_
  rw [ld_slab, ld_plane, ld_plane]
  exact pay3_apply x0 x1 x2 0 0 r y z

/-- The y component over the slab. -/
theorem outBlock_y (x0 : FVec Ideal S1x8x256x256 .f32) (x1 x2 : FVec Ideal S1x1x256x256 .f32) (r : Fin 8) (y z : Fin 256) :
    outBlock (F := Ideal) x0 x1 x2 (ix5 (0 : Fin 1) (1 : Fin 3) r y z)
      = (x0 (ix4 (0 : Fin 1) r (up y) z) - x0 (ix4 (0 : Fin 1) r (dn y) z)) * Ideal.ofBits .f32 0x3F000000#32 := by
  unfold outBlock
  refine (canon_at_y (Val := Elt Ideal) _ _ _ r y z).trans ?_
  rw [ld_slab]
  exact pay4_apply x0 0 0 r y z

/-- The z component over the slab. -/
theorem outBlock_z (x0 : FVec Ideal S1x8x256x256 .f32) (x1 x2 : FVec Ideal S1x1x256x256 .f32) (r : Fin 8) (y z : Fin 256) :
    outBlock (F := Ideal) x0 x1 x2 (ix5 (0 : Fin 1) (2 : Fin 3) r y z)
      = (x0 (ix4 (0 : Fin 1) r y (up z)) - x0 (ix4 (0 : Fin 1) r y (dn z))) * Ideal.ofBits .f32 0x3F000000#32 := by
  unfold outBlock
  refine (canon_at_z (Val := Elt Ideal) _ _ _ r y z).trans ?_
  rw [ld_slab]
  exact pay1_apply x0 0 0 r y z

end Cert.KernelIdeal.Hand

end
-- ==== Proof.KernelValue.lean ====
/-
  The finite-difference kernel's value: after the run the result array IS the periodic central-difference gradient
  of the field, index by index.

  Grid point `t = (b, ξ)` writes back the result block at block index `(b, 0, ξ, 0, 0)`: batch `b`, all three
  components, the x-planes `8ξ … 8ξ+7`, every y and z.  The three input blocks it computes from are the slab of those
  eight planes, the plane `(8ξ − 1) mod 256` and the plane `(8ξ + 8) mod 256` of the same batch.  So at plane `r` of the
  slab the forward x-neighbour is plane `r + 1` of the slab for `r < 7` and the plane after the slab for `r = 7`, which
  in both cases is plane `(8ξ + r + 1) mod 256` of the field; likewise backward.  The y and z neighbours lie inside the
  slab, the wrap-around taken within the block.  Hence what point `t` writes back is block `t` of the gradient, and
  since the 4 × 32 blocks tile the result array the array ends equal to the gradient everywhere.
-/
import proofs.«110784_j85263690760521_1_alg».proof.Proof.RunKI
import proofs.«110784_j85263690760521_1_alg».proof.Proof.BlockValue
import proofs.«110784_j85263690760521_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Stencil
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The field as core `c` holds it. -/
abbrev field (c : Dev nD) : SIn.Idx → EReal := V m c main_arg0

/-! ## Where the windows sit at a grid point -/

/-- The printed index maps, decided over the 128 grid points: the result window sits at batch `b`, x-block `ξ`
    (`b < 4`, `ξ < 32`); the slab window at the same batch and x-block; the two plane windows at the same batch and at
    the planes `(8ξ + 255) mod 256` and `(8ξ + 8) mod 256`. -/
theorem idx_facts : ∀ t : Fin cfg0.N,
    win0_3.index t (0 : Fin 5) < 4 ∧ win0_3.index t (1 : Fin 5) = 0 ∧ win0_3.index t (2 : Fin 5) < 32
    ∧ win0_3.index t (3 : Fin 5) = 0 ∧ win0_3.index t (4 : Fin 5) = 0
    ∧ win0_0.index t (0 : Fin 4) = win0_3.index t (0 : Fin 5) ∧ win0_0.index t (1 : Fin 4) = win0_3.index t (2 : Fin 5)
    ∧ win0_0.index t (2 : Fin 4) = 0 ∧ win0_0.index t (3 : Fin 4) = 0
    ∧ win0_1.index t (0 : Fin 4) = win0_3.index t (0 : Fin 5) ∧ win0_1.index t (1 : Fin 4) = (win0_3.index t (2 : Fin 5) * 8 + 255) % 256
    ∧ win0_1.index t (2 : Fin 4) = 0 ∧ win0_1.index t (3 : Fin 4) = 0
    ∧ win0_2.index t (0 : Fin 4) = win0_3.index t (0 : Fin 5) ∧ win0_2.index t (1 : Fin 4) = (win0_3.index t (2 : Fin 5) * 8 + 8) % 256
    ∧ win0_2.index t (2 : Fin 4) = 0 ∧ win0_2.index t (3 : Fin 4) = 0 :=
  (by decide +kernel : ∀ t : Fin grid0.N, _)

/-- Every (batch, x-block) pair is some grid point's. -/
theorem idx_onto : ∀ (b : Fin 4) (ξ : Fin 32), ∃ t : Fin cfg0.N, win0_3.index t = ![b.val, 0, ξ.val, 0, 0] :=
  (by decide +kernel : ∀ (b : Fin 4) (ξ : Fin 32), ∃ t : Fin grid0.N, win0_3.index t = ![b.val, 0, ξ.val, 0, 0])

/-! ## The input blocks are pieces of the field -/

/-- Plane `r` of the slab at point `t` is plane `8ξ + r` of the field. -/
theorem slab_apply (c : Dev nD) (t : Fin cfg0.N) (r : Fin 8) (y z : Fin 256) (b : Fin 4) (X : Fin 256)
    (hb : b.val = win0_3.index t (0 : Fin 5)) (hX : X.val = win0_3.index t (2 : Fin 5) * 8 + r.val) :
    iblk m c 0 t (ix4 (0 : Fin 1) r y z) = field m c (ix4 b X y z) := by
  obtain ⟨-, -, -, -, -, e0, e1, e2, e3, -⟩ := idx_facts t
  show V m c main_arg0 (((cfg0.win 0).blk t).view.emb (ix4 (0 : Fin 1) r y z)) = V m c main_arg0 (ix4 b X y z)
  refine congrArg _ (funext fun a => Fin.ext ?_)
  match a with
  | ⟨0, _⟩ => show win0_0.index t (0 : Fin 4) * 1 + 1 * 0 = b.val; omega
  | ⟨1, _⟩ => show win0_0.index t (1 : Fin 4) * 8 + 1 * r.val = X.val; omega
  | ⟨2, _⟩ => show win0_0.index t (2 : Fin 4) * 256 + 1 * y.val = y.val; omega
  | ⟨3, _⟩ => show win0_0.index t (3 : Fin 4) * 256 + 1 * z.val = z.val; omega

/-- The plane before the slab at point `t` is plane `(8ξ + 255) mod 256` of the field. -/
theorem before_apply (c : Dev nD) (t : Fin cfg0.N) (y z : Fin 256) (b : Fin 4) (X : Fin 256)
    (hb : b.val = win0_3.index t (0 : Fin 5)) (hX : X.val = (win0_3.index t (2 : Fin 5) * 8 + 255) % 256) :
    iblk m c 1 t (ix4 (0 : Fin 1) (0 : Fin 1) y z) = field m c (ix4 b X y z) := by
  obtain ⟨-, -, -, -, -, -, -, -, -, e0, e1, e2, e3, -⟩ := idx_facts t
  show V m c main_arg0 (((cfg0.win 1).blk t).view.emb (ix4 (0 : Fin 1) (0 : Fin 1) y z)) = V m c main_arg0 (ix4 b X y z)
  refine congrArg _ (funext fun a => Fin.ext ?_)
  match a with
  | ⟨0, _⟩ => show win0_1.index t (0 : Fin 4) * 1 + 1 * 0 = b.val; omega
  | ⟨1, _⟩ => show win0_1.index t (1 : Fin 4) * 1 + 1 * 0 = X.val; omega
  | ⟨2, _⟩ => show win0_1.index t (2 : Fin 4) * 256 + 1 * y.val = y.val; omega
  | ⟨3, _⟩ => show win0_1.index t (3 : Fin 4) * 256 + 1 * z.val = z.val; omega

/-- The plane after the slab at point `t` is plane `(8ξ + 8) mod 256` of the field. -/
theorem after_apply (c : Dev nD) (t : Fin cfg0.N) (y z : Fin 256) (b : Fin 4) (X : Fin 256)
    (hb : b.val = win0_3.index t (0 : Fin 5)) (hX : X.val = (win0_3.index t (2 : Fin 5) * 8 + 8) % 256) :
    iblk m c 2 t (ix4 (0 : Fin 1) (0 : Fin 1) y z) = field m c (ix4 b X y z) := by
  obtain ⟨-, -, -, -, -, -, -, -, -, -, -, -, -, e0, e1, e2, e3⟩ := idx_facts t
  show V m c main_arg0 (((cfg0.win 2).blk t).view.emb (ix4 (0 : Fin 1) (0 : Fin 1) y z)) = V m c main_arg0 (ix4 b X y z)
  refine congrArg _ (funext fun a => Fin.ext ?_)
  match a with
  | ⟨0, _⟩ => show win0_2.index t (0 : Fin 4) * 1 + 1 * 0 = b.val; omega
  | ⟨1, _⟩ => show win0_2.index t (1 : Fin 4) * 1 + 1 * 0 = X.val; omega
  | ⟨2, _⟩ => show win0_2.index t (2 : Fin 4) * 256 + 1 * y.val = y.val; omega
  | ⟨3, _⟩ => show win0_2.index t (3 : Fin 4) * 256 + 1 * z.val = z.val; omega

/-- An index of the result block at point `t`, as an index of the result array. -/
theorem out_emb (t : Fin cfg0.N) (k : Fin 3) (r : Fin 8) (y z : Fin 256) (b : Fin 4) (X : Fin 256)
    (hb : b.val = win0_3.index t (0 : Fin 5)) (hX : X.val = win0_3.index t (2 : Fin 5) * 8 + r.val) :
    ((cfg0.win 3).blk t).view.emb (ix5 (0 : Fin 1) k r y z) = ix5 b k X y z := by
  obtain ⟨-, e1, -, e3, e4, -⟩ := idx_facts t
  funext a; apply Fin.ext
  match a with
  | ⟨0, _⟩ => show win0_3.index t (0 : Fin 5) * 1 + 1 * 0 = b.val; omega
  | ⟨1, _⟩ => show win0_3.index t (1 : Fin 5) * 3 + 1 * k.val = k.val; omega
  | ⟨2, _⟩ => show win0_3.index t (2 : Fin 5) * 8 + 1 * r.val = X.val; omega
  | ⟨3, _⟩ => show win0_3.index t (3 : Fin 5) * 256 + 1 * y.val = y.val; omega
  | ⟨4, _⟩ => show win0_3.index t (4 : Fin 5) * 256 + 1 * z.val = z.val; omega

/-! ## What a point writes back is its block of the gradient -/

/-- The x component: inside the slab the neighbours of plane `r` are planes `r ± 1`; at the slab's two ends they are
    the planes handed in beside the slab; either way the field's planes `(8ξ + r ± 1) mod 256`. -/
theorem block_x (c : Dev nD) (t : Fin cfg0.N) (r : Fin 8) (y z : Fin 256) (b : Fin 4) (X : Fin 256)
    (hb : b.val = win0_3.index t (0 : Fin 5)) (hX : X.val = win0_3.index t (2 : Fin 5) * 8 + r.val) :
    outBlock (F := Ideal) (iblk m c 0 t) (iblk m c 1 t) (iblk m c 2 t) (ix5 (0 : Fin 1) (0 : Fin 3) r y z)
      = gradAt (field m c) b 0 X y z := by
  obtain ⟨-, -, h2, -⟩ := idx_facts t
  have hr : r.val < 8 := r.isLt
  refine (outBlock_x (iblk m c 0 t) (iblk m c 1 t) (iblk m c 2 t) r y z).trans ?_
  rw [gradAt_0]
  have hup : (if h : r.val + 1 < 8 then iblk m c 0 t (ix4 (0 : Fin 1) (⟨r.val + 1, h⟩ : Fin 8) y z)
      else iblk m c 2 t (ix4 (0 : Fin 1) (0 : Fin 1) y z)) = field m c (ix4 b (up X) y z) := by
    split
    · next h => exact slab_apply m c t ⟨r.val + 1, h⟩ y z b (up X) hb (by rw [up_val, hX]; show _ = _ * 8 + (r.val + 1); omega)
    · next h => exact after_apply m c t y z b (up X) hb (by rw [up_val, hX]; omega)
  have hdn : (if h : 0 < r.val then iblk m c 0 t (ix4 (0 : Fin 1) (⟨r.val - 1, by omega⟩ : Fin 8) y z)
      else iblk m c 1 t (ix4 (0 : Fin 1) (0 : Fin 1) y z)) = field m c (ix4 b (dn X) y z) := by
    split
    · next h => exact slab_apply m c t ⟨r.val - 1, by omega⟩ y z b (dn X) hb (by rw [dn_val, hX]; show _ = _ * 8 + (r.val - 1); omega)
    · next h => exact before_apply m c t y z b (dn X) hb (by rw [dn_val, hX]; omega)
  rw [hup, hdn]

/-- The y component: both neighbours lie in the slab, in the same plane. -/
theorem block_y (c : Dev nD) (t : Fin cfg0.N) (r : Fin 8) (y z : Fin 256) (b : Fin 4) (X : Fin 256)
    (hb : b.val = win0_3.index t (0 : Fin 5)) (hX : X.val = win0_3.index t (2 : Fin 5) * 8 + r.val) :
    outBlock (F := Ideal) (iblk m c 0 t) (iblk m c 1 t) (iblk m c 2 t) (ix5 (0 : Fin 1) (1 : Fin 3) r y z)
      = gradAt (field m c) b 1 X y z := by
  refine (outBlock_y (iblk m c 0 t) (iblk m c 1 t) (iblk m c 2 t) r y z).trans ?_
  rw [gradAt_1, slab_apply m c t r (up y) z b X hb hX, slab_apply m c t r (dn y) z b X hb hX]

/-- The z component: likewise. -/
theorem block_z (c : Dev nD) (t : Fin cfg0.N) (r : Fin 8) (y z : Fin 256) (b : Fin 4) (X : Fin 256)
    (hb : b.val = win0_3.index t (0 : Fin 5)) (hX : X.val = win0_3.index t (2 : Fin 5) * 8 + r.val) :
    outBlock (F := Ideal) (iblk m c 0 t) (iblk m c 1 t) (iblk m c 2 t) (ix5 (0 : Fin 1) (2 : Fin 3) r y z)
      = gradAt (field m c) b 2 X y z := by
  refine (outBlock_z (iblk m c 0 t) (iblk m c 1 t) (iblk m c 2 t) r y z).trans ?_
  rw [gradAt_2, slab_apply m c t r y (up z) b X hb hX, slab_apply m c t r y (dn z) b X hb hX]

/-- What point `t` writes back is block `t` of the gradient of the field. -/
theorem flushed_eq (c : Dev nD) (t : Fin cfg0.N) :
    (dats m 0 c).flushed 3 t = ((cfg0.win 3).blk t).view.read (Elt Ideal) (grad (field m c)) := by
  show (cfg0.win 3).cut (grid0.coords t) ((dats m 0 c).after 3 t) = _
  rw [after0_3]
  obtain ⟨h0, -, h2, -⟩ := idx_facts t
  funext j
  obtain ⟨a, k, r, y, z, rfl⟩ : ∃ (a : Fin 1) (k : Fin 3) (r : Fin 8) (y z : Fin 256), j = ix5 a k r y z :=
    ⟨j 0, j 1, j 2, j 3, j 4, funext fun d => by
      match d with
      | ⟨0, _⟩ => rfl
      | ⟨1, _⟩ => rfl
      | ⟨2, _⟩ => rfl
      | ⟨3, _⟩ => rfl
      | ⟨4, _⟩ => rfl⟩
  obtain rfl : a = 0 := Subsingleton.elim _ _
  have hr : r.val < 8 := r.isLt
  show outBlock (F := Ideal) (iblk m c 0 t) (iblk m c 1 t) (iblk m c 2 t) (ix5 (0 : Fin 1) k r y z)
    = grad (field m c) (((cfg0.win 3).blk t).view.emb (ix5 (0 : Fin 1) k r y z))
  rw [out_emb t k r y z ⟨win0_3.index t (0 : Fin 5), h0⟩ ⟨win0_3.index t (2 : Fin 5) * 8 + r.val, by omega⟩ rfl rfl, grad_ix5]
  match k with
  | ⟨0, _⟩ => exact block_x m c t r y z _ _ rfl rfl
  | ⟨1, _⟩ => exact block_y m c t r y z _ _ rfl rfl
  | ⟨2, _⟩ => exact block_z m c t r y z _ _ rfl rfl

/-! ## The blocks tile the result array -/

/-- An index of the result array is in point `t`'s block iff each coordinate is in the block's range on its axis. -/
theorem mem_blk (t : Fin cfg0.N) (i : S4x3x256x256x256.Idx) :
    i ∈ ((cfg0.win 3).blk t).view.set ↔ ∀ a : Fin 5, win0_3.index t a * S1x3x8x256x256.size a ≤ (i a).val
      ∧ (i a).val < win0_3.index t a * S1x3x8x256x256.size a + S1x3x8x256x256.size a := by
  show i ∈ ((View.whole main_v0).slice (win0_3.rect t)).set ↔ _
  rw [View.set_slice_whole, Rect.mem_set_unit]
  exact Iff.rfl

/-- Every index of the result array lies in the block of the point at its batch and its x-block. -/
theorem cover (i : S4x3x256x256x256.Idx) :
    ∃ t : Fin cfg0.N, (cfg0.win 3).flush t = true ∧ i ∈ ((cfg0.win 3).blk t).view.set := by
  have hi0 : (i 0).val < 4 := (i 0).isLt
  have hi1 : (i 1).val < 3 := (i 1).isLt
  have hi2 : (i 2).val < 256 := (i 2).isLt
  have hi3 : (i 3).val < 256 := (i 3).isLt
  have hi4 : (i 4).val < 256 := (i 4).isLt
  obtain ⟨t, ht⟩ := idx_onto ⟨(i 0).val, hi0⟩ ⟨(i 2).val / 8, by omega⟩
  have q0 : win0_3.index t (0 : Fin 5) = (i 0).val := congrFun ht 0
  have q1 : win0_3.index t (1 : Fin 5) = 0 := congrFun ht 1
  have q2 : win0_3.index t (2 : Fin 5) = (i 2).val / 8 := congrFun ht 2
  have q3 : win0_3.index t (3 : Fin 5) = 0 := congrFun ht 3
  have q4 : win0_3.index t (4 : Fin 5) = 0 := congrFun ht 4
  refine ⟨t, flush0_3 t, ?_⟩
  rw [mem_blk]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 3 ≤ (i 1).val ∧ (i 1).val < win0_3.index t (1 : Fin 5) * 3 + 3; omega
  | ⟨2, _⟩ => show win0_3.index t (2 : Fin 5) * 8 ≤ (i 2).val ∧ (i 2).val < win0_3.index t (2 : Fin 5) * 8 + 8; omega
  | ⟨3, _⟩ => show win0_3.index t (3 : Fin 5) * 256 ≤ (i 3).val ∧ (i 3).val < win0_3.index t (3 : Fin 5) * 256 + 256; omega
  | ⟨4, _⟩ => show win0_3.index t (4 : Fin 5) * 256 ≤ (i 4).val ∧ (i 4).val < win0_3.index t (4 : Fin 5) * 256 + 256; omega

/-- After the last point the result array is the gradient of the field. -/
theorem final (c : Dev nD) : (dats m 0 c).arrAt 3 cfg0.N = grad (field m c) :=
  (dats m 0 c).arrAt_eq_of_cover 3 (grad (field m c)) (fun t _ => flushed_eq m c t) cover

/-! ## The run, read -/

/-- Every fair execution ends with the result array at the gradient of the field the program started with, and the
    field unchanged. -/
theorem value_run : θ_run defs (onTc (τ := τ) (main (F := Ideal))) ⟨m, fun _ => 0, ρ⟩ fun r => ∀ c : Dev nD,
      r.2.mem ((c.tc : Thread nD τ).loc main_v0) = grad (m ((c.tc : Thread nD τ).loc main_arg0))
      ∧ r.2.mem ((c.tc : Thread nD τ).loc main_arg0) = m ((c.tc : Thread nD τ).loc main_arg0) :=
  (θ_run defs _ _).mono (fun _ h c => ⟨(h c 3).trans (final m c),
      (h c 0).trans (((dats m 0 c).arrAt_in 0 rfl _).trans (A_eq m c 0))⟩)
    (run_main m ρ)

end Cert.KernelIdeal.Hand

end
-- ==== Proof.RefValue.lean ====
/-
  The reference side of the central difference.

  The reference forms, for each of the three periodic space axes, the field rolled one step backward and one step
  forward along that axis, subtracts the two, divides by two, and stacks the three quotients on a new axis.

  A roll by one step along an axis of 256 sites is the join of two slices of the field.  Rolling by -1 joins the
  sites 1 … 255 with the site 0: at coordinate c < 255 it reads the field at c + 1, at c = 255 it reads site 0; in
  both cases the site (c + 1) mod 256, one step forward.  Rolling by +1 joins the site 255 with the sites 0 … 254:
  at coordinate 0 it reads site 255, at c ≥ 1 it reads c - 1; in both cases the site (c + 255) mod 256, one step
  backward.  Dividing an extended real by the real number 2 is multiplying it by the real number ½, so each
  quotient is the central difference, and component k of the stack is the quotient for axis k.
-/
import proofs.«110784_j85263690760521_1_alg».proof.Proof.Gen.ReferenceIdeal.Run
import proofs.«110784_j85263690760521_1_alg».proof.Proof.Gen.ReferenceIdeal.Read
import proofs.«110784_j85263690760521_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx
open Cert.Stencil

/-- The field: an extended real at every site of the 4 × 256 × 256 × 256 lattice. -/
abbrev Field : Type := (⟨S4x256x256x256, .f32⟩ : BufTy).Contents (Elt Ideal)

/-! ## The first space axis -/

/-- Rolling by -1 along the first space axis reads one step forward: the join of sites 1 … 255 with site 0. -/
theorem roll_up_x (x0 : Field) (b : Fin 4) (x y z : Fin 256) :
    val_main_v0 (F := Ideal) x0 (ix4 b x y z) = x0 (ix4 b (up x) y z) := by
  unfold val_main_v0
  by_cases hx : x.val < 255
  · -- a coordinate below 255 lies in the first piece, which starts at site 1: it reads site c + 1
    refine (concatenate_pair_apply_left (t := S4x256x256x256) (s₁ := S4x255x256x256) (s₂ := S4x1x256x256) 1 _ _ _
      (ix4 b x y z) rfl (ix4 b (⟨x.val, hx⟩ : Fin 255) y z) ?_).trans ?_
    · intro a
      match a with
      | ⟨0, _⟩ => rfl
      | ⟨1, _⟩ => rfl
      | ⟨2, _⟩ => rfl
      | ⟨3, _⟩ => rfl
    · rw [val_main_call0_v0_apply]
      refine congrArg x0 (funext fun a => ?_)
      match a with
      | ⟨0, _⟩ => rfl
      | ⟨1, _⟩ => exact Fin.ext (by show 1 + x.val = (x.val + 1) % 256; omega)
      | ⟨2, _⟩ => rfl
      | ⟨3, _⟩ => rfl
  · -- coordinate 255 lies in the second piece, the single site 0 = (255 + 1) mod 256
    have hx' : x.val = 255 := by have := x.isLt; omega
    refine (concatenate_pair_apply_right (t := S4x256x256x256) (s₁ := S4x255x256x256) (s₂ := S4x1x256x256) 1 _ _ _
      (ix4 b x y z) rfl rfl (ix4 b (0 : Fin 1) y z) ?_ ?_).trans ?_
    · intro a
      match a with
      | ⟨0, _⟩ => exact fun _ => rfl
      | ⟨1, _⟩ => exact fun h => absurd rfl h
      | ⟨2, _⟩ => exact fun _ => rfl
      | ⟨3, _⟩ => exact fun _ => rfl
    · show 0 + 255 = x.val
      omega
    · rw [val_main_call0_v1_apply]
      refine congrArg x0 (funext fun a => ?_)
      match a with
      | ⟨0, _⟩ => rfl
      | ⟨1, _⟩ => exact Fin.ext (by show 0 = (x.val + 1) % 256; omega)
      | ⟨2, _⟩ => rfl
      | ⟨3, _⟩ => rfl

/-- Rolling by +1 along the first space axis reads one step backward: the join of site 255 with sites 0 … 254. -/
theorem roll_dn_x (x0 : Field) (b : Fin 4) (x y z : Fin 256) :
    val_main_v1 (F := Ideal) x0 (ix4 b x y z) = x0 (ix4 b (dn x) y z) := by
  unfold val_main_v1
  by_cases hx : x.val < 1
  · -- coordinate 0 lies in the first piece, the single site 255 = (0 + 255) mod 256
    refine (concatenate_pair_apply_left (t := S4x256x256x256) (s₁ := S4x1x256x256) (s₂ := S4x255x256x256) 1 _ _ _
      (ix4 b x y z) rfl (ix4 b (⟨x.val, hx⟩ : Fin 1) y z) ?_).trans ?_
    · intro a
      match a with
      | ⟨0, _⟩ => rfl
      | ⟨1, _⟩ => rfl
      | ⟨2, _⟩ => rfl
      | ⟨3, _⟩ => rfl
    · rw [val_main_call1_v0_apply]
      refine congrArg x0 (funext fun a => ?_)
      match a with
      | ⟨0, _⟩ => rfl
      | ⟨1, _⟩ => exact Fin.ext (by show 255 + x.val = (x.val + 255) % 256; omega)
      | ⟨2, _⟩ => rfl
      | ⟨3, _⟩ => rfl
  · -- a coordinate c ≥ 1 lies in the second piece, which starts at site 0: it reads site c - 1
    have hx' : x.val - 1 < 255 := by have := x.isLt; omega
    refine (concatenate_pair_apply_right (t := S4x256x256x256) (s₁ := S4x1x256x256) (s₂ := S4x255x256x256) 1 _ _ _
      (ix4 b x y z) rfl rfl (ix4 b (⟨x.val - 1, hx'⟩ : Fin 255) y z) ?_ ?_).trans ?_
    · intro a
      match a with
      | ⟨0, _⟩ => exact fun _ => rfl
      | ⟨1, _⟩ => exact fun h => absurd rfl h
      | ⟨2, _⟩ => exact fun _ => rfl
      | ⟨3, _⟩ => exact fun _ => rfl
    · show x.val - 1 + 1 = x.val
      omega
    · rw [val_main_call1_v1_apply]
      refine congrArg x0 (funext fun a => ?_)
      match a with
      | ⟨0, _⟩ => rfl
      | ⟨1, _⟩ => exact Fin.ext (by show x.val - 1 = (x.val + 255) % 256; have := x.isLt; omega)
      | ⟨2, _⟩ => rfl
      | ⟨3, _⟩ => rfl

/-- The quotient for the first space axis is the central difference along it: the difference of the two rolls
    divided by two, and dividing by two is multiplying by one half on every extended real. -/
theorem diff_x (x0 : Field) (b : Fin 4) (x y z : Fin 256) :
    val_main_v4 (F := Ideal) x0 (ix4 b x y z)
      = (x0 (ix4 b (up x) y z) - x0 (ix4 b (dn x) y z)) * Ideal.ofBits .f32 0x3F000000#32 := by
  rw [val_main_v4_apply, val_main_v2_apply, val_main_v3_apply, val_main_cst_apply, roll_up_x, roll_dn_x]
  exact half_law _

/-! ## The second space axis -/

/-- Rolling by -1 along the second space axis reads one step forward: the join of sites 1 … 255 with site 0. -/
theorem roll_up_y (x0 : Field) (b : Fin 4) (x y z : Fin 256) :
    val_main_v5 (F := Ideal) x0 (ix4 b x y z) = x0 (ix4 b x (up y) z) := by
  unfold val_main_v5
  by_cases hy : y.val < 255
  · -- a coordinate below 255 lies in the first piece, which starts at site 1: it reads site c + 1
    refine (concatenate_pair_apply_left (t := S4x256x256x256) (s₁ := S4x256x255x256) (s₂ := S4x256x1x256) 2 _ _ _
      (ix4 b x y z) rfl (ix4 b x (⟨y.val, hy⟩ : Fin 255) z) ?_).trans ?_
    · intro a
      match a with
      | ⟨0, _⟩ => rfl
      | ⟨1, _⟩ => rfl
      | ⟨2, _⟩ => rfl
      | ⟨3, _⟩ => rfl
    · rw [val_main_call2_v0_apply]
      refine congrArg x0 (funext fun a => ?_)
      match a with
      | ⟨0, _⟩ => rfl
      | ⟨1, _⟩ => rfl
      | ⟨2, _⟩ => exact Fin.ext (by show 1 + y.val = (y.val + 1) % 256; omega)
      | ⟨3, _⟩ => rfl
  · -- coordinate 255 lies in the second piece, the single site 0 = (255 + 1) mod 256
    have hy' : y.val = 255 := by have := y.isLt; omega
    refine (concatenate_pair_apply_right (t := S4x256x256x256) (s₁ := S4x256x255x256) (s₂ := S4x256x1x256) 2 _ _ _
      (ix4 b x y z) rfl rfl (ix4 b x (0 : Fin 1) z) ?_ ?_).trans ?_
    · intro a
      match a with
      | ⟨0, _⟩ => exact fun _ => rfl
      | ⟨1, _⟩ => exact fun _ => rfl
      | ⟨2, _⟩ => exact fun h => absurd rfl h
      | ⟨3, _⟩ => exact fun _ => rfl
    · show 0 + 255 = y.val
      omega
    · rw [val_main_call2_v1_apply]
      refine congrArg x0 (funext fun a => ?_)
      match a with
      | ⟨0, _⟩ => rfl
      | ⟨1, _⟩ => rfl
      | ⟨2, _⟩ => exact Fin.ext (by show 0 = (y.val + 1) % 256; omega)
      | ⟨3, _⟩ => rfl

/-- Rolling by +1 along the second space axis reads one step backward: the join of site 255 with sites 0 … 254. -/
theorem roll_dn_y (x0 : Field) (b : Fin 4) (x y z : Fin 256) :
    val_main_v6 (F := Ideal) x0 (ix4 b x y z) = x0 (ix4 b x (dn y) z) := by
  unfold val_main_v6
  by_cases hy : y.val < 1
  · -- coordinate 0 lies in the first piece, the single site 255 = (0 + 255) mod 256
    refine (concatenate_pair_apply_left (t := S4x256x256x256) (s₁ := S4x256x1x256) (s₂ := S4x256x255x256) 2 _ _ _
      (ix4 b x y z) rfl (ix4 b x (⟨y.val, hy⟩ : Fin 1) z) ?_).trans ?_
    · intro a
      match a with
      | ⟨0, _⟩ => rfl
      | ⟨1, _⟩ => rfl
      | ⟨2, _⟩ => rfl
      | ⟨3, _⟩ => rfl
    · rw [val_main_call3_v0_apply]
      refine congrArg x0 (funext fun a => ?_)
      match a with
      | ⟨0, _⟩ => rfl
      | ⟨1, _⟩ => rfl
      | ⟨2, _⟩ => exact Fin.ext (by show 255 + y.val = (y.val + 255) % 256; omega)
      | ⟨3, _⟩ => rfl
  · -- a coordinate c ≥ 1 lies in the second piece, which starts at site 0: it reads site c - 1
    have hy' : y.val - 1 < 255 := by have := y.isLt; omega
    refine (concatenate_pair_apply_right (t := S4x256x256x256) (s₁ := S4x256x1x256) (s₂ := S4x256x255x256) 2 _ _ _
      (ix4 b x y z) rfl rfl (ix4 b x (⟨y.val - 1, hy'⟩ : Fin 255) z) ?_ ?_).trans ?_
    · intro a
      match a with
      | ⟨0, _⟩ => exact fun _ => rfl
      | ⟨1, _⟩ => exact fun _ => rfl
      | ⟨2, _⟩ => exact fun h => absurd rfl h
      | ⟨3, _⟩ => exact fun _ => rfl
    · show y.val - 1 + 1 = y.val
      omega
    · rw [val_main_call3_v1_apply]
      refine congrArg x0 (funext fun a => ?_)
      match a with
      | ⟨0, _⟩ => rfl
      | ⟨1, _⟩ => rfl
      | ⟨2, _⟩ => exact Fin.ext (by show y.val - 1 = (y.val + 255) % 256; have := y.isLt; omega)
      | ⟨3, _⟩ => rfl

/-- The quotient for the second space axis is the central difference along it: the difference of the two rolls
    divided by two, and dividing by two is multiplying by one half on every extended real. -/
theorem diff_y (x0 : Field) (b : Fin 4) (x y z : Fin 256) :
    val_main_v9 (F := Ideal) x0 (ix4 b x y z)
      = (x0 (ix4 b x (up y) z) - x0 (ix4 b x (dn y) z)) * Ideal.ofBits .f32 0x3F000000#32 := by
  rw [val_main_v9_apply, val_main_v7_apply, val_main_v8_apply, val_main_cst_0_apply, roll_up_y, roll_dn_y]
  exact half_law _

/-! ## The third space axis -/

/-- Rolling by -1 along the third space axis reads one step forward: the join of sites 1 … 255 with site 0. -/
theorem roll_up_z (x0 : Field) (b : Fin 4) (x y z : Fin 256) :
    val_main_v10 (F := Ideal) x0 (ix4 b x y z) = x0 (ix4 b x y (up z)) := by
  unfold val_main_v10
  by_cases hz : z.val < 255
  · -- a coordinate below 255 lies in the first piece, which starts at site 1: it reads site c + 1
    refine (concatenate_pair_apply_left (t := S4x256x256x256) (s₁ := S4x256x256x255) (s₂ := S4x256x256x1) 3 _ _ _
      (ix4 b x y z) rfl (ix4 b x y (⟨z.val, hz⟩ : Fin 255)) ?_).trans ?_
    · intro a
      match a with
      | ⟨0, _⟩ => rfl
      | ⟨1, _⟩ => rfl
      | ⟨2, _⟩ => rfl
      | ⟨3, _⟩ => rfl
    · rw [val_main_call4_v0_apply]
      refine congrArg x0 (funext fun a => ?_)
      match a with
      | ⟨0, _⟩ => rfl
      | ⟨1, _⟩ => rfl
      | ⟨2, _⟩ => rfl
      | ⟨3, _⟩ => exact Fin.ext (by show 1 + z.val = (z.val + 1) % 256; omega)
  · -- coordinate 255 lies in the second piece, the single site 0 = (255 + 1) mod 256
    have hz' : z.val = 255 := by have := z.isLt; omega
    refine (concatenate_pair_apply_right (t := S4x256x256x256) (s₁ := S4x256x256x255) (s₂ := S4x256x256x1) 3 _ _ _
      (ix4 b x y z) rfl rfl (ix4 b x y (0 : Fin 1)) ?_ ?_).trans ?_
    · intro a
      match a with
      | ⟨0, _⟩ => exact fun _ => rfl
      | ⟨1, _⟩ => exact fun _ => rfl
      | ⟨2, _⟩ => exact fun _ => rfl
      | ⟨3, _⟩ => exact fun h => absurd rfl h
    · show 0 + 255 = z.val
      omega
    · rw [val_main_call4_v1_apply]
      refine congrArg x0 (funext fun a => ?_)
      match a with
      | ⟨0, _⟩ => rfl
      | ⟨1, _⟩ => rfl
      | ⟨2, _⟩ => rfl
      | ⟨3, _⟩ => exact Fin.ext (by show 0 = (z.val + 1) % 256; omega)

/-- Rolling by +1 along the third space axis reads one step backward: the join of site 255 with sites 0 … 254. -/
theorem roll_dn_z (x0 : Field) (b : Fin 4) (x y z : Fin 256) :
    val_main_v11 (F := Ideal) x0 (ix4 b x y z) = x0 (ix4 b x y (dn z)) := by
  unfold val_main_v11
  by_cases hz : z.val < 1
  · -- coordinate 0 lies in the first piece, the single site 255 = (0 + 255) mod 256
    refine (concatenate_pair_apply_left (t := S4x256x256x256) (s₁ := S4x256x256x1) (s₂ := S4x256x256x255) 3 _ _ _
      (ix4 b x y z) rfl (ix4 b x y (⟨z.val, hz⟩ : Fin 1)) ?_).trans ?_
    · intro a
      match a with
      | ⟨0, _⟩ => rfl
      | ⟨1, _⟩ => rfl
      | ⟨2, _⟩ => rfl
      | ⟨3, _⟩ => rfl
    · rw [val_main_call5_v0_apply]
      refine congrArg x0 (funext fun a => ?_)
      match a with
      | ⟨0, _⟩ => rfl
      | ⟨1, _⟩ => rfl
      | ⟨2, _⟩ => rfl
      | ⟨3, _⟩ => exact Fin.ext (by show 255 + z.val = (z.val + 255) % 256; omega)
  · -- a coordinate c ≥ 1 lies in the second piece, which starts at site 0: it reads site c - 1
    have hz' : z.val - 1 < 255 := by have := z.isLt; omega
    refine (concatenate_pair_apply_right (t := S4x256x256x256) (s₁ := S4x256x256x1) (s₂ := S4x256x256x255) 3 _ _ _
      (ix4 b x y z) rfl rfl (ix4 b x y (⟨z.val - 1, hz'⟩ : Fin 255)) ?_ ?_).trans ?_
    · intro a
      match a with
      | ⟨0, _⟩ => exact fun _ => rfl
      | ⟨1, _⟩ => exact fun _ => rfl
      | ⟨2, _⟩ => exact fun _ => rfl
      | ⟨3, _⟩ => exact fun h => absurd rfl h
    · show z.val - 1 + 1 = z.val
      omega
    · rw [val_main_call5_v1_apply]
      refine congrArg x0 (funext fun a => ?_)
      match a with
      | ⟨0, _⟩ => rfl
      | ⟨1, _⟩ => rfl
      | ⟨2, _⟩ => rfl
      | ⟨3, _⟩ => exact Fin.ext (by show z.val - 1 = (z.val + 255) % 256; have := z.isLt; omega)

/-- The quotient for the third space axis is the central difference along it: the difference of the two rolls
    divided by two, and dividing by two is multiplying by one half on every extended real. -/
theorem diff_z (x0 : Field) (b : Fin 4) (x y z : Fin 256) :
    val_main_v14 (F := Ideal) x0 (ix4 b x y z)
      = (x0 (ix4 b x y (up z)) - x0 (ix4 b x y (dn z))) * Ideal.ofBits .f32 0x3F000000#32 := by
  rw [val_main_v14_apply, val_main_v12_apply, val_main_v13_apply, val_main_cst_1_apply, roll_up_z, roll_dn_z]
  exact half_law _

/-! ## The stack of the three quotients -/

/-- Component 0 of the stack is the quotient for the first space axis: the three pieces have extent one along the
    new axis, so coordinate 0 falls in piece 0, after 0 sites, at its only site. -/
theorem stack_0 (x0 : Field) (b : Fin 4) (x y z : Fin 256) :
    val_main_v18 (F := Ideal) x0 (ix5 b (0 : Fin 3) x y z) = val_main_v4 (F := Ideal) x0 (ix4 b x y z) := by
  unfold val_main_v18
  refine (concatenate_apply_piece (t := S4x3x256x256x256) 1 _ _ (ix5 b (0 : Fin 3) x y z) 0 (by simp)
    S4x1x256x256x256 (val_main_v15 (F := Ideal) x0) rfl rfl 0 rfl (ix5 b (0 : Fin 1) x y z) ?_ ?_).trans ?_
  · intro a
    match a with
    | ⟨0, _⟩ => exact fun _ => rfl
    | ⟨1, _⟩ => exact fun h => absurd rfl h
    | ⟨2, _⟩ => exact fun _ => rfl
    | ⟨3, _⟩ => exact fun _ => rfl
    | ⟨4, _⟩ => exact fun _ => rfl
  · rfl
  · rw [val_main_v15_apply]
    refine congrArg (val_main_v4 (F := Ideal) x0) (funext fun a => ?_)
    match a with
    | ⟨0, _⟩ => rfl
    | ⟨1, _⟩ => rfl
    | ⟨2, _⟩ => rfl
    | ⟨3, _⟩ => rfl

/-- Component 1 of the stack is the quotient for the second space axis: the three pieces have extent one along the
    new axis, so coordinate 1 falls in piece 1, after 1 site, at its only site. -/
theorem stack_1 (x0 : Field) (b : Fin 4) (x y z : Fin 256) :
    val_main_v18 (F := Ideal) x0 (ix5 b (1 : Fin 3) x y z) = val_main_v9 (F := Ideal) x0 (ix4 b x y z) := by
  unfold val_main_v18
  refine (concatenate_apply_piece (t := S4x3x256x256x256) 1 _ _ (ix5 b (1 : Fin 3) x y z) 1 (by simp)
    S4x1x256x256x256 (val_main_v16 (F := Ideal) x0) rfl rfl 1 rfl (ix5 b (0 : Fin 1) x y z) ?_ ?_).trans ?_
  · intro a
    match a with
    | ⟨0, _⟩ => exact fun _ => rfl
    | ⟨1, _⟩ => exact fun h => absurd rfl h
    | ⟨2, _⟩ => exact fun _ => rfl
    | ⟨3, _⟩ => exact fun _ => rfl
    | ⟨4, _⟩ => exact fun _ => rfl
  · rfl
  · rw [val_main_v16_apply]
    refine congrArg (val_main_v9 (F := Ideal) x0) (funext fun a => ?_)
    match a with
    | ⟨0, _⟩ => rfl
    | ⟨1, _⟩ => rfl
    | ⟨2, _⟩ => rfl
    | ⟨3, _⟩ => rfl

/-- Component 2 of the stack is the quotient for the third space axis: the three pieces have extent one along the
    new axis, so coordinate 2 falls in piece 2, after 2 sites, at its only site. -/
theorem stack_2 (x0 : Field) (b : Fin 4) (x y z : Fin 256) :
    val_main_v18 (F := Ideal) x0 (ix5 b (2 : Fin 3) x y z) = val_main_v14 (F := Ideal) x0 (ix4 b x y z) := by
  unfold val_main_v18
  refine (concatenate_apply_piece (t := S4x3x256x256x256) 1 _ _ (ix5 b (2 : Fin 3) x y z) 2 (by simp)
    S4x1x256x256x256 (val_main_v17 (F := Ideal) x0) rfl rfl 2 rfl (ix5 b (0 : Fin 1) x y z) ?_ ?_).trans ?_
  · intro a
    match a with
    | ⟨0, _⟩ => exact fun _ => rfl
    | ⟨1, _⟩ => exact fun h => absurd rfl h
    | ⟨2, _⟩ => exact fun _ => rfl
    | ⟨3, _⟩ => exact fun _ => rfl
    | ⟨4, _⟩ => exact fun _ => rfl
  · rfl
  · rw [val_main_v17_apply]
    refine congrArg (val_main_v14 (F := Ideal) x0) (funext fun a => ?_)
    match a with
    | ⟨0, _⟩ => rfl
    | ⟨1, _⟩ => rfl
    | ⟨2, _⟩ => rfl
    | ⟨3, _⟩ => rfl

/-- The reference's result is the periodic central-difference gradient of the field, index by index: component k at a
    site is the quotient for space axis k there. -/
theorem ref_eq_grad (x0 : (⟨Cert.ReferenceIdeal.S4x256x256x256, .f32⟩ : BufTy).Contents (Elt Ideal)) :
    Cert.ReferenceIdeal.Read.val_main_v18 (F := Ideal) x0 = Cert.Stencil.grad x0 := by
  funext j
  obtain ⟨b, k, x, y, z, rfl⟩ : ∃ (b : Fin 4) (k : Fin 3) (x y z : Fin 256), j = ix5 b k x y z :=
    ⟨j 0, j 1, j 2, j 3, j 4, eq_ix5 j⟩
  rw [grad_ix5]
  match k with
  | ⟨0, _⟩ => exact (stack_0 x0 b x y z).trans (diff_x x0 b x y z)
  | ⟨1, _⟩ => exact (stack_1 x0 b x y z).trans (diff_y x0 b x y z)
  | ⟨2, _⟩ => exact (stack_2 x0 b x y z).trans (diff_z x0 b x y z)

end Cert.ReferenceIdeal.RefValue

end
-- ==== Proof.lean ====
/-
  The finite-difference kernel against its reference: both compute the periodic central-difference gradient of a
  field on a 4 × 256 × 256 × 256 lattice, three components per site.

  The kernel tiles the x axis in slabs of eight planes and is handed, beside each slab, the plane before it and the
  plane after it (modulo 256), so that the forward and backward x-neighbours of every plane of the slab are at hand;
  the y and z neighbours are inside the slab.  It multiplies each difference by the float 0.5.  The reference rolls
  the whole field by one site either way along each axis, subtracts, and divides by the float 2.0.  Index by index
  both are `(v(site + 1) − v(site − 1)) · ½`: a roll by one site is a step modulo 256, and dividing an extended real
  by 2 is multiplying it by ½, the infinities included — so the precondition (finite inputs) is never opened.

  The three frames: the kernel's runs (at both instances) end with the field untouched because the field is only ever
  read, through three windows that share its ownership; the reference's run is its generated read-back.  The ideal
  pass rewrote nothing, so `preserves` has nothing to say.
-/
import proofs.«110784_j85263690760521_1_alg».proof.Defs
import proofs.«110784_j85263690760521_1_alg».proof.Proof.Gen.Kernel
import proofs.«110784_j85263690760521_1_alg».proof.Proof.Gen.KernelIdeal
import proofs.«110784_j85263690760521_1_alg».proof.Proof.Gen.ReferenceIdeal
import proofs.«110784_j85263690760521_1_alg».proof.Proof.Gen.Pre_finite_inputs
import proofs.«110784_j85263690760521_1_alg».proof.Proof.Gen.ReferenceIdeal.Run
import proofs.«110784_j85263690760521_1_alg».proof.Proof.Gen.ReferenceIdeal.Read
import proofs.«110784_j85263690760521_1_alg».proof.Proof.RunK
import proofs.«110784_j85263690760521_1_alg».proof.Proof.KernelValue
import proofs.«110784_j85263690760521_1_alg».proof.Proof.RefValue

noncomputable section

namespace Cert.Proof

open Idealize.ShloMosaic Idealize.ShloMosaic.TcCoe Idealize.SL.Sem

/-- The kernel as printed runs to the end and leaves the field as it was. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- The reference is host operations only: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From fields that agree, both programs end with the gradient of the field in their result array. -/
theorem algebraic : Cert.algebraic_KernelIdeal_ReferenceIdeal := by
  intro m ρ m' ρ' _ hagree
  refine ⟨fun c => Cert.Stencil.grad (m ((c.tc : Thread Cert.KernelIdeal.nD Cert.KernelIdeal.τ).loc Cert.KernelIdeal.main_arg0)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq_grad, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
